-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x47x156 : Shape := ⟨4, ![2, 32, 47, 156]⟩
abbrev S2x121x47x156 : Shape := ⟨4, ![2, 121, 47, 156]⟩
abbrev S2x376x1248 : Shape := ⟨3, ![2, 376, 1248]⟩
abbrev S2x47x156 : Shape := ⟨3, ![2, 47, 156]⟩
abbrev S_ : Shape := ⟨0, ![]⟩

class Facts : Prop where
  bcast_S_S2x32x47x156 : S_.BroadcastsInDim S2x32x47x156 (![] : Fin 0 → Fin S2x32x47x156.rank)
  reducesTo_S2x32x47x156_S_d0_1_2_3 : S2x32x47x156.ReducesTo [0, 1, 2, 3] S_
  h_S_ : 0 < S_.numel
  bcast_S_S2x121x47x156 : S_.BroadcastsInDim S2x121x47x156 (![] : Fin 0 → Fin S2x121x47x156.rank)
  reducesTo_S2x121x47x156_S_d0_1_2_3 : S2x121x47x156.ReducesTo [0, 1, 2, 3] S_
  bcast_S_S2x376x1248 : S_.BroadcastsInDim S2x376x1248 (![] : Fin 0 → Fin S2x376x1248.rank)
  reducesTo_S2x376x1248_S_d0_1_2 : S2x376x1248.ReducesTo [0, 1, 2] S_

variable [Facts]

def fn {F : FTy → Type} [FloatOps F] (main_arg0 : FVec F S2x32x47x156 .f32) (main_arg1 : FVec F S2x121x47x156 .f32) (main_arg2 : FVec F S2x376x1248 .f32) (main_arg3 : IVec S2x47x156 32) : IVec S_ 1 :=
  let main_v0 : FVec F S2x32x47x156 .f32 := Host.absf main_arg0
  let main_cst : FVec F S_ .f32 := constant S_ .f32 0x7F800000#32
  let main_v1 : FVec F S2x32x47x156 .f32 := broadcastInDim S2x32x47x156 ![] bcast_S_S2x32x47x156 main_cst
  let main_v2 : IVec S2x32x47x156 1 := cmpf .olt main_v0 main_v1
  let main_c : IVec S_ 1 := constantI S_ 1 1#1
  let main_v3 : IVec S_ 1 := (fun x v => Host.reduce IntOp.andi x v reducesTo_S2x32x47x156_S_d0_1_2_3 h_S_) main_v2 main_c
  let main_v4 : FVec F S2x121x47x156 .f32 := Host.absf main_arg1
  let main_cst_0 : FVec F S_ .f32 := constant S_ .f32 0x7F800000#32
  let main_v5 : FVec F S2x121x47x156 .f32 := broadcastInDim S2x121x47x156 ![] bcast_S_S2x121x47x156 main_cst_0
  let main_v6 : IVec S2x121x47x156 1 := cmpf .olt main_v4 main_v5
  let main_c_1 : IVec S_ 1 := constantI S_ 1 1#1
  let main_v7 : IVec S_ 1 := (fun x v => Host.reduce IntOp.andi x v reducesTo_S2x121x47x156_S_d0_1_2_3 h_S_) main_v6 main_c_1
  let main_v8 : IVec S_ 1 := andi main_v3 main_v7
  let main_v9 : FVec F S2x376x1248 .f32 := Host.absf main_arg2
  let main_cst_2 : FVec F S_ .f32 := constant S_ .f32 0x7F800000#32
  let main_v10 : FVec F S2x376x1248 .f32 := broadcastInDim S2x376x1248 ![] bcast_S_S2x376x1248 main_cst_2
  let main_v11 : IVec S2x376x1248 1 := cmpf .olt main_v9 main_v10
  let main_c_3 : IVec S_ 1 := constantI S_ 1 1#1
  let main_v12 : IVec S_ 1 := (fun x v => Host.reduce IntOp.andi x v reducesTo_S2x376x1248_S_d0_1_2 h_S_) main_v11 main_c_3
  let main_v13 : IVec S_ 1 := andi main_v8 main_v12
  main_v13
-- ==== Kernel.lean ====
abbrev S2x32x47x156 : Shape := ⟨4, ![2, 32, 47, 156]⟩
abbrev S2x121x47x156 : Shape := ⟨4, ![2, 121, 47, 156]⟩
abbrev S2x376x1248 : Shape := ⟨3, ![2, 376, 1248]⟩
abbrev S2x47x156 : Shape := ⟨3, ![2, 47, 156]⟩
abbrev S2x47x8x156x8 : Shape := ⟨5, ![2, 47, 8, 156, 8]⟩
abbrev S_ : Shape := ⟨0, ![]⟩
abbrev S2x120x47x156 : Shape := ⟨4, ![2, 120, 47, 156]⟩
abbrev S1x121x47x156 : Shape := ⟨4, ![1, 121, 47, 156]⟩
abbrev S1x47x156 : Shape := ⟨3, ![1, 47, 156]⟩
abbrev S1x120x47x156 : Shape := ⟨4, ![1, 120, 47, 156]⟩
abbrev S1x1x47x156 : Shape := ⟨4, ![1, 1, 47, 156]⟩
abbrev S2x32x120x47x156 : Shape := ⟨5, ![2, 32, 120, 47, 156]⟩
abbrev S1x32x47x156 : Shape := ⟨4, ![1, 32, 47, 156]⟩
abbrev S1x8x47x156 : Shape := ⟨4, ![1, 8, 47, 156]⟩
abbrev S1x32x8x47x156 : Shape := ⟨5, ![1, 32, 8, 47, 156]⟩
abbrev S1x32x1x47x156 : Shape := ⟨5, ![1, 32, 1, 47, 156]⟩
abbrev S1x1x8x47x156 : Shape := ⟨5, ![1, 1, 8, 47, 156]⟩

abbrev nBuf : Space → Nat
  | .hbm => 27
  | .vmem => 18
  | .smem => 0
  | _ => 0

abbrev bufTy : (tb : Table) → Fin (tcTables nBuf tb) → BufTy
  | .hbm, ⟨0, _⟩ => ⟨S2x32x47x156, .f32⟩
  | .hbm, ⟨1, _⟩ => ⟨S2x121x47x156, .f32⟩
  | .hbm, ⟨2, _⟩ => ⟨S2x376x1248, .f32⟩
  | .hbm, ⟨3, _⟩ => ⟨S2x47x156, .i32⟩
  | .hbm, ⟨4, _⟩ => ⟨S2x47x8x156x8, .f32⟩
  | .hbm, ⟨5, _⟩ => ⟨S_, .f32⟩
  | .hbm, ⟨6, _⟩ => ⟨S2x47x156, .f32⟩
  | .hbm, ⟨7, _⟩ => ⟨S_, .f32⟩
  | .hbm, ⟨8, _⟩ => ⟨S2x47x156, .f32⟩
  | .hbm, ⟨9, _⟩ => ⟨S2x47x156, .f32⟩
  | .hbm, ⟨10, _⟩ => ⟨S_, .f32⟩
  | .hbm, ⟨11, _⟩ => ⟨S2x47x8x156x8, .f32⟩
  | .hbm, ⟨12, _⟩ => ⟨S2x47x8x156x8, .i1⟩
  | .hbm, ⟨13, _⟩ => ⟨S2x47x8x156x8, .f32⟩
  | .hbm, ⟨14, _⟩ => ⟨S_, .f32⟩
  | .hbm, ⟨15, _⟩ => ⟨S2x47x156, .f32⟩
  | .hbm, ⟨16, _⟩ => ⟨S_, .f32⟩
  | .hbm, ⟨17, _⟩ => ⟨S2x47x156, .f32⟩
  | .hbm, ⟨18, _⟩ => ⟨S2x47x156, .f32⟩
  | .hbm, ⟨19, _⟩ => ⟨S_, .f32⟩
  | .hbm, ⟨20, _⟩ => ⟨S2x47x156, .f32⟩
  | .hbm, ⟨21, _⟩ => ⟨S2x47x156, .f32⟩
  | .hbm, ⟨22, _⟩ => ⟨S2x47x156, .f32⟩
  | .hbm, ⟨23, _⟩ => ⟨S2x120x47x156, .f32⟩
  | .hbm, ⟨24, _⟩ => ⟨S2x120x47x156, .f32⟩
  | .hbm, ⟨25, _⟩ => ⟨S2x32x120x47x156, .f32⟩
  | .hbm, ⟨26, _⟩ => ⟨S2x32x120x47x156, .f32⟩
  | .local _ .vmem, ⟨0, _⟩ => ⟨S1x121x47x156, .f32⟩
  | .local _ .vmem, ⟨1, _⟩ => ⟨S1x121x47x156, .f32⟩
  | .local _ .vmem, ⟨2, _⟩ => ⟨S1x47x156, .i32⟩
  | .local _ .vmem, ⟨3, _⟩ => ⟨S1x47x156, .i32⟩
  | .local _ .vmem, ⟨4, _⟩ => ⟨S1x120x47x156, .f32⟩
  | .local _ .vmem, ⟨5, _⟩ => ⟨S1x120x47x156, .f32⟩
  | .local _ .vmem, ⟨6, _⟩ => ⟨S1x120x47x156, .f32⟩
  | .local _ .vmem, ⟨7, _⟩ => ⟨S1x120x47x156, .f32⟩
  | .local _ .vmem, ⟨8, _⟩ => ⟨S1x32x47x156, .f32⟩
  | .local _ .vmem, ⟨9, _⟩ => ⟨S1x32x47x156, .f32⟩
  | .local _ .vmem, ⟨10, _⟩ => ⟨S1x8x47x156, .f32⟩
  | .local _ .vmem, ⟨11, _⟩ => ⟨S1x8x47x156, .f32⟩
  | .local _ .vmem, ⟨12, _⟩ => ⟨S1x8x47x156, .f32⟩
  | .local _ .vmem, ⟨13, _⟩ => ⟨S1x8x47x156, .f32⟩
  | .local _ .vmem, ⟨14, _⟩ => ⟨S1x32x8x47x156, .f32⟩
  | .local _ .vmem, ⟨15, _⟩ => ⟨S1x32x8x47x156, .f32⟩
  | .local _ .vmem, ⟨16, _⟩ => ⟨S1x32x8x47x156, .f32⟩
  | .local _ .vmem, ⟨17, _⟩ => ⟨S1x32x8x47x156, .f32⟩
  | _, _ => ⟨S2x32x47x156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x121x47x156 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x47x156 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x120x47x156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x120x47x156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 15], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_4 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x32x47x156 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x8x47x156 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x47x156 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x8x47x156 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x32x8x47x156 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x376x1248_S2x47x8x156x8 : S2x376x1248.ShapeCasts S2x47x8x156x8
  reducesTo_S2x47x8x156x8_S2x47x156_d2_4 : S2x47x8x156x8.ReducesTo [2, 4] S2x47x156
  h_S_ : 0 < S_.numel
  bcast_S_S2x47x156 : S_.BroadcastsInDim S2x47x156 (![] : Fin 0 → Fin S2x47x156.rank)
  bcast_S_S2x47x8x156x8 : S_.BroadcastsInDim S2x47x8x156x8 (![] : Fin 0 → Fin S2x47x8x156x8.rank)
  inb_S1x121x47x156_S1x121x47x156_0_0_0_0 : ∀ a, (![0, 0, 0, 0] : Fin 4 → Nat) a + S1x121x47x156.size a ≤ S1x121x47x156.size a
  h_S1x121x47x156 : 0 < S1x121x47x156.numel
  reduces_S1x121x47x156_S1x47x156 : S1x121x47x156.Reduces [1] S1x47x156
  shapeCasts_S1x47x156_S1x1x47x156 : S1x47x156.ShapeCasts S1x1x47x156
  broadcasts_S1x1x47x156_S1x121x47x156 : S1x1x47x156.Broadcasts S1x121x47x156
  slices_S1x121x47x156_o0_0_0_0_S1x120x47x156 : S1x121x47x156.Slices ![0, 0, 0, 0] S1x120x47x156
  inb_S1x120x47x156_S1x120x47x156_0_0_0_0 : ∀ a, (![0, 0, 0, 0] : Fin 4 → Nat) a + S1x120x47x156.size a ≤ S1x120x47x156.size a
  h_S1x120x47x156 : 0 < S1x120x47x156.numel
  inb_S1x47x156_S1x47x156_0_0_0 : ∀ a, (![0, 0, 0] : Fin 3 → Nat) a + S1x47x156.size a ≤ S1x47x156.size a
  h_S1x47x156 : 0 < S1x47x156.numel
  iota_S1x120x47x156_d1_w32 : S1x120x47x156.Iotas .tc 32 [1]
  broadcasts_S1x1x47x156_S1x120x47x156 : S1x1x47x156.Broadcasts S1x120x47x156
  natLt_1_32 : 1 < 32
  inb_S1x32x47x156_S1x32x47x156_0_0_0_0 : ∀ a, (![0, 0, 0, 0] : Fin 4 → Nat) a + S1x32x47x156.size a ≤ S1x32x47x156.size a
  h_S1x32x47x156 : 0 < S1x32x47x156.numel
  inb_S1x8x47x156_S1x8x47x156_0_0_0_0 : ∀ a, (![0, 0, 0, 0] : Fin 4 → Nat) a + S1x8x47x156.size a ≤ S1x8x47x156.size a
  h_S1x8x47x156 : 0 < S1x8x47x156.numel
  shapeCasts_S1x8x47x156_S1x8x47x156 : S1x8x47x156.ShapeCasts S1x8x47x156
  shapeCasts_S1x32x47x156_S1x32x1x47x156 : S1x32x47x156.ShapeCasts S1x32x1x47x156
  shapeCasts_S1x8x47x156_S1x1x8x47x156 : S1x8x47x156.ShapeCasts S1x1x8x47x156
  broadcasts_S1x32x1x47x156_S1x32x8x47x156 : S1x32x1x47x156.Broadcasts S1x32x8x47x156
  broadcasts_S1x1x8x47x156_S1x32x8x47x156 : S1x1x8x47x156.Broadcasts S1x32x8x47x156
  inb_S1x32x8x47x156_S1x32x8x47x156_0_0_0_0_0 : ∀ a, (![0, 0, 0, 0, 0] : Fin 5 → Nat) a + S1x32x8x47x156.size a ≤ S1x32x8x47x156.size a
  h_S1x32x8x47x156 : 0 < S1x32x8x47x156.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x121x47x156.size a ≤ S2x121x47x156.size a
  hwx0_0 : ∀ i : grid0.Coords, EltTy.bits .f32 = 32 ∨ (Rect.block (s := S2x121x47x156) S1x121x47x156.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x47x156.size a ≤ S2x47x156.size a
  hwx0_1 : ∀ i : grid0.Coords, EltTy.bits .i32 = 32 ∨ (Rect.block (s := S2x47x156) S1x47x156.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x120x47x156.size a ≤ S2x120x47x156.size a
  hwx0_2 : ∀ i : grid0.Coords, EltTy.bits .f32 = 32 ∨ (Rect.block (s := S2x120x47x156) S1x120x47x156.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x120x47x156.size a ≤ S2x120x47x156.size a
  hwx0_3 : ∀ i : grid0.Coords, EltTy.bits .f32 = 32 ∨ (Rect.block (s := S2x120x47x156) S1x120x47x156.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x47x156.size a ≤ S2x32x47x156.size a
  hwx1_0 : ∀ i : grid1.Coords, EltTy.bits .f32 = 32 ∨ (Rect.block (s := S2x32x47x156) S1x32x47x156.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x47x156.size a ≤ S2x120x47x156.size a
  hwx1_1 : ∀ i : grid1.Coords, EltTy.bits .f32 = 32 ∨ (Rect.block (s := S2x120x47x156) S1x8x47x156.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x47x156.size a ≤ S2x120x47x156.size a
  hwx1_2 : ∀ i : grid1.Coords, EltTy.bits .f32 = 32 ∨ (Rect.block (s := S2x120x47x156) S1x8x47x156.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x8x47x156.size a ≤ S2x32x120x47x156.size a
  hwx1_3 : ∀ i : grid1.Coords, EltTy.bits .f32 = 32 ∨ (Rect.block (s := S2x32x120x47x156) S1x32x8x47x156.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x8x47x156.size a ≤ S2x32x120x47x156.size a
  hwx1_4 : ∀ i : grid1.Coords, EltTy.bits .f32 = 32 ∨ (Rect.block (s := S2x32x120x47x156) S1x32x8x47x156.size (cc1_transform_4 i) (hinb1_4 i)).WholeWords (EltTy.packing .f32)

variable [Facts₀]

abbrev win0_0 : Pipeline.Window sig grid0 :=
  Pipeline.Window.ofSpec (Memref.whole main_arg1) S1x121x47x156.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x47x156.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x120x47x156.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x120x47x156.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x32x47x156.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S1x8x47x156.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_1) S1x8x47x156.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_0) S1x32x8x47x156.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14_1) S1x32x8x47x156.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x32x47x156 : Shape := ⟨4, ![2, 32, 47, 156]⟩
abbrev S2x121x47x156 : Shape := ⟨4, ![2, 121, 47, 156]⟩
abbrev S2x376x1248 : Shape := ⟨3, ![2, 376, 1248]⟩
abbrev S2x47x156 : Shape := ⟨3, ![2, 47, 156]⟩
abbrev S2x47x8x156x8 : Shape := ⟨5, ![2, 47, 8, 156, 8]⟩
abbrev S_ : Shape := ⟨0, ![]⟩
abbrev S2x47x156x1 : Shape := ⟨4, ![2, 47, 156, 1]⟩
abbrev S1x1x1x121 : Shape := ⟨4, ![1, 1, 1, 121]⟩
abbrev S2x47x156x121 : Shape := ⟨4, ![2, 47, 156, 121]⟩
abbrev S2x1x47x156 : Shape := ⟨4, ![2, 1, 47, 156]⟩
abbrev S2x120x47x156 : Shape := ⟨4, ![2, 120, 47, 156]⟩
abbrev S2x1x120x47x156 : Shape := ⟨5, ![2, 1, 120, 47, 156]⟩
abbrev S2x32x1x47x156 : Shape := ⟨5, ![2, 32, 1, 47, 156]⟩
abbrev S2x32x120x47x156 : Shape := ⟨5, ![2, 32, 120, 47, 156]⟩

abbrev nBuf : Space → Nat
  | .hbm => 68
  | .vmem => 0
  | .smem => 0
  | _ => 0

abbrev bufTy : (tb : Table) → Fin (tcTables nBuf tb) → BufTy
  | .hbm, ⟨0, _⟩ => ⟨S2x32x47x156, .f32⟩
  | .hbm, ⟨1, _⟩ => ⟨S2x121x47x156, .f32⟩
  | .hbm, ⟨2, _⟩ => ⟨S2x376x1248, .f32⟩
  | .hbm, ⟨3, _⟩ => ⟨S2x47x156, .i32⟩
  | .hbm, ⟨4, _⟩ => ⟨S2x47x8x156x8, .f32⟩
  | .hbm, ⟨5, _⟩ => ⟨S_, .f32⟩
  | .hbm, ⟨6, _⟩ => ⟨S2x47x156, .f32⟩
  | .hbm, ⟨7, _⟩ => ⟨S_, .f32⟩
  | .hbm, ⟨8, _⟩ => ⟨S2x47x156, .f32⟩
  | .hbm, ⟨9, _⟩ => ⟨S2x47x156, .f32⟩
  | .hbm, ⟨10, _⟩ => ⟨S_, .f32⟩
  | .hbm, ⟨11, _⟩ => ⟨S2x47x8x156x8, .f32⟩
  | .hbm, ⟨12, _⟩ => ⟨S2x47x8x156x8, .i1⟩
  | .hbm, ⟨13, _⟩ => ⟨S2x47x8x156x8, .f32⟩
  | .hbm, ⟨14, _⟩ => ⟨S_, .f32⟩
  | .hbm, ⟨15, _⟩ => ⟨S2x47x156, .f32⟩
  | .hbm, ⟨16, _⟩ => ⟨S_, .f32⟩
  | .hbm, ⟨17, _⟩ => ⟨S2x47x156, .f32⟩
  | .hbm, ⟨18, _⟩ => ⟨S2x47x156, .f32⟩
  | .hbm, ⟨19, _⟩ => ⟨S_, .f32⟩
  | .hbm, ⟨20, _⟩ => ⟨S2x47x156, .f32⟩
  | .hbm, ⟨21, _⟩ => ⟨S2x47x156, .f32⟩
  | .hbm, ⟨22, _⟩ => ⟨S2x47x156, .f32⟩
  | .hbm, ⟨23, _⟩ => ⟨S2x47x156x1, .i32⟩
  | .hbm, ⟨24, _⟩ => ⟨S1x1x1x121, .i32⟩
  | .hbm, ⟨25, _⟩ => ⟨S2x47x156x121, .i32⟩
  | .hbm, ⟨26, _⟩ => ⟨S2x47x156x121, .i32⟩
  | .hbm, ⟨27, _⟩ => ⟨S2x47x156x121, .i1⟩
  | .hbm, ⟨28, _⟩ => ⟨S2x47x156x121, .f32⟩
  | .hbm, ⟨29, _⟩ => ⟨S_, .i32⟩
  | .hbm, ⟨30, _⟩ => ⟨S2x47x156, .i32⟩
  | .hbm, ⟨31, _⟩ => ⟨S2x47x156, .i1⟩
  | .hbm, ⟨32, _⟩ => ⟨S_, .f32⟩
  | .hbm, ⟨33, _⟩ => ⟨S_, .f32⟩
  | .hbm, ⟨34, _⟩ => ⟨S2x47x156, .f32⟩
  | .hbm, ⟨35, _⟩ => ⟨S2x47x156, .f32⟩
  | .hbm, ⟨36, _⟩ => ⟨S2x47x156, .f32⟩
  | .hbm, ⟨37, _⟩ => ⟨S2x47x156, .f32⟩
  | .hbm, ⟨38, _⟩ => ⟨S2x47x156x1, .f32⟩
  | .hbm, ⟨39, _⟩ => ⟨S2x47x156x121, .f32⟩
  | .hbm, ⟨40, _⟩ => ⟨S2x47x156x121, .f32⟩
  | .hbm, ⟨41, _⟩ => ⟨S2x121x47x156, .f32⟩
  | .hbm, ⟨42, _⟩ => ⟨S_, .f32⟩
  | .hbm, ⟨43, _⟩ => ⟨S2x47x156, .f32⟩
  | .hbm, ⟨44, _⟩ => ⟨S_, .f32⟩
  | .hbm, ⟨45, _⟩ => ⟨S2x47x156, .f32⟩
  | .hbm, ⟨46, _⟩ => ⟨S2x47x156, .f32⟩
  | .hbm, ⟨47, _⟩ => ⟨S2x1x47x156, .f32⟩
  | .hbm, ⟨48, _⟩ => ⟨S2x121x47x156, .f32⟩
  | .hbm, ⟨49, _⟩ => ⟨S2x121x47x156, .f32⟩
  | .hbm, ⟨50, _⟩ => ⟨S2x121x47x156, .f32⟩
  | .hbm, ⟨51, _⟩ => ⟨S_, .f32⟩
  | .hbm, ⟨52, _⟩ => ⟨S2x47x156, .f32⟩
  | .hbm, ⟨53, _⟩ => ⟨S2x1x47x156, .f32⟩
  | .hbm, ⟨54, _⟩ => ⟨S2x121x47x156, .f32⟩
  | .hbm, ⟨55, _⟩ => ⟨S2x121x47x156, .f32⟩
  | .hbm, ⟨56, _⟩ => ⟨S2x120x47x156, .f32⟩
  | .hbm, ⟨57, _⟩ => ⟨S2x1x120x47x156, .f32⟩
  | .hbm, ⟨58, _⟩ => ⟨S2x32x1x47x156, .f32⟩
  | .hbm, ⟨59, _⟩ => ⟨S2x32x120x47x156, .f32⟩
  | .hbm, ⟨60, _⟩ => ⟨S2x32x120x47x156, .f32⟩
  | .hbm, ⟨61, _⟩ => ⟨S2x32x120x47x156, .f32⟩
  | .hbm, ⟨62, _⟩ => ⟨S2x120x47x156, .f32⟩
  | .hbm, ⟨63, _⟩ => ⟨S2x1x120x47x156, .f32⟩
  | .hbm, ⟨64, _⟩ => ⟨S2x32x1x47x156, .f32⟩
  | .hbm, ⟨65, _⟩ => ⟨S2x32x120x47x156, .f32⟩
  | .hbm, ⟨66, _⟩ => ⟨S2x32x120x47x156, .f32⟩
  | .hbm, ⟨67, _⟩ => ⟨S2x32x120x47x156, .f32⟩
  | _, _ => ⟨S2x32x47x156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]

class Facts₀ : Prop where
  shapeCasts_S2x376x1248_S2x47x8x156x8 : S2x376x1248.ShapeCasts S2x47x8x156x8
  reducesTo_S2x47x8x156x8_S2x47x156_d2_4 : S2x47x8x156x8.ReducesTo [2, 4] S2x47x156
  h_S_ : 0 < S_.numel
  bcast_S_S2x47x156 : S_.BroadcastsInDim S2x47x156 (![] : Fin 0 → Fin S2x47x156.rank)
  bcast_S_S2x47x8x156x8 : S_.BroadcastsInDim S2x47x8x156x8 (![] : Fin 0 → Fin S2x47x8x156x8.rank)
  bcast_S2x47x156_S2x47x156x1_0_1_2 : S2x47x156.BroadcastsInDim S2x47x156x1 (![0, 1, 2] : Fin 3 → Fin S2x47x156x1.rank)
  bcast_S2x47x156x1_S2x47x156x121_0_1_2_3 : S2x47x156x1.BroadcastsInDim S2x47x156x121 (![0, 1, 2, 3] : Fin 4 → Fin S2x47x156x121.rank)
  bcast_S1x1x1x121_S2x47x156x121_0_1_2_3 : S1x1x1x121.BroadcastsInDim S2x47x156x121 (![0, 1, 2, 3] : Fin 4 → Fin S2x47x156x121.rank)
  transposes_S2x47x156x121_S2x121x47x156_0_3_1_2 : S2x47x156x121.Transposes [0, 3, 1, 2] S2x121x47x156
  reducesTo_S2x121x47x156_S2x47x156_d1 : S2x121x47x156.ReducesTo [1] S2x47x156
  bcast_S2x47x156_S2x1x47x156_0_2_3 : S2x47x156.BroadcastsInDim S2x1x47x156 (![0, 2, 3] : Fin 3 → Fin S2x1x47x156.rank)
  bcast_S2x1x47x156_S2x121x47x156_0_1_2_3 : S2x1x47x156.BroadcastsInDim S2x121x47x156 (![0, 1, 2, 3] : Fin 4 → Fin S2x121x47x156.rank)
  slices_S2x121x47x156_S2x120x47x156_0_0_0_0 : S2x121x47x156.Slices ![0, 0, 0, 0] S2x120x47x156
  bcast_S2x120x47x156_S2x1x120x47x156_0_2_3_4 : S2x120x47x156.BroadcastsInDim S2x1x120x47x156 (![0, 2, 3, 4] : Fin 4 → Fin S2x1x120x47x156.rank)
  bcast_S2x32x47x156_S2x32x1x47x156_0_1_3_4 : S2x32x47x156.BroadcastsInDim S2x32x1x47x156 (![0, 1, 3, 4] : Fin 4 → Fin S2x32x1x47x156.rank)
  bcast_S2x1x120x47x156_S2x32x120x47x156_0_1_2_3_4 : S2x1x120x47x156.BroadcastsInDim S2x32x120x47x156 (![0, 1, 2, 3, 4] : Fin 5 → Fin S2x32x120x47x156.rank)
  bcast_S2x32x1x47x156_S2x32x120x47x156_0_1_2_3_4 : S2x32x1x47x156.BroadcastsInDim S2x32x120x47x156 (![0, 1, 2, 3, 4] : Fin 5 → Fin S2x32x120x47x156.rank)

variable [Facts₀]

class Facts : Prop extends Facts₀ where

variable [Facts]
-- ==== Proof.Spec.lean ====
/-
  What the three result arrays hold, as functions of the argument arrays over the extended reals, index by index.

  * `probs x`: at (b, d, h, w), d < 120, the softmax over the 121 depth bins of pixel (b, h, w), bin d kept:
    e^(x[b,d,h,w] − M) / Σ_k e^(x[b,k,h,w] − M), with M the largest of the pixel's 121 logits (a maximum taken from −∞).
  * `onehot bin`: at (b, d, h, w), 1 where the pixel's target bin is d and 0 elsewhere.
  * `frustum img p`: at (b, c, d, h, w), the product img[b,c,h,w] · p[b,d,h,w].
-/
import proofs.«108458_j77403900609179_1_alg».proof.KernelIdeal
import Idealize.ShloMosaic.Lib.ValueIdx
import Idealize.ShloMosaic.PureOps.Ideal.Laws

noncomputable section

namespace Cert.Spec

open Idealize.ShloMosaic Idealize.ShloMosaic.ValueIdx Cert.KernelIdeal

/-- The value of the pattern both programs start a maximum from (−∞). -/
abbrev negInf : EReal := Ideal.ofBits .f32 0xFF800000#32

/-- The largest of the 121 logits of pixel (b, h, w), taken from −∞. -/
def rowMax (x : S2x121x47x156.Idx → EReal) (b : Fin 2) (h : Fin 47) (w : Fin 156) : EReal :=
  (Finset.univ : Finset (Fin 121)).fold max negInf (fun k => x (ix4 b k h w))

/-- e^(logit − the pixel's largest logit). -/
def expo (x : S2x121x47x156.Idx → EReal) (b : Fin 2) (k : Fin 121) (h : Fin 47) (w : Fin 156) : EReal :=
  Ideal.exp (x (ix4 b k h w) - rowMax x b h w)

/-- The softmax over the 121 bins at bin d < 120, coordinate by coordinate. -/
def probsAt (x : S2x121x47x156.Idx → EReal) (b : Fin 2) (d : Fin 120) (h : Fin 47) (w : Fin 156) : EReal :=
  Ideal.div (expo x b (Fin.castLE (by decide) d) h w) (∑ k : Fin 121, expo x b k h w)

/-- The first 120 bins of the softmax, as an array. -/
def probs (x : S2x121x47x156.Idx → EReal) : S2x120x47x156.Idx → EReal :=
  fun i => probsAt x (i 0) (i 1) (i 2) (i 3)

/-- 1 where the pixel's target bin is d, else 0, coordinate by coordinate. -/
def onehotAt (bin : S2x47x156.Idx → BitVec 32) (b : Fin 2) (d : Fin 120) (h : Fin 47) (w : Fin 156) : EReal :=
  if bin (ix3 b h w) = BitVec.ofNat 32 d.val then 1 else 0

/-- The one-hot target over the first 120 bins, as an array. -/
def onehot (bin : S2x47x156.Idx → BitVec 32) : S2x120x47x156.Idx → EReal :=
  fun i => onehotAt bin (i 0) (i 1) (i 2) (i 3)

/-- The outer product of the image features (over channels) and a depth distribution (over bins), per pixel. -/
def frustum (img : S2x32x47x156.Idx → EReal) (p : S2x120x47x156.Idx → EReal) : S2x32x120x47x156.Idx → EReal :=
  fun i => img (ix4 (i 0) (i 1) (i 3) (i 4)) * p (ix4 (i 0) (i 2) (i 3) (i 4))

theorem probs_apply (x : S2x121x47x156.Idx → EReal) (b : Fin 2) (d : Fin 120) (h : Fin 47) (w : Fin 156) :
    probs x (ix4 b d h w) = probsAt x b d h w := rfl

theorem onehot_apply (bin : S2x47x156.Idx → BitVec 32) (b : Fin 2) (d : Fin 120) (h : Fin 47) (w : Fin 156) :
    onehot bin (ix4 b d h w) = onehotAt bin b d h w := rfl

theorem frustum_apply (img : S2x32x47x156.Idx → EReal) (p : S2x120x47x156.Idx → EReal)
    (b : Fin 2) (c : Fin 32) (d : Fin 120) (h : Fin 47) (w : Fin 156) :
    frustum img p (ix5 b c d h w) = img (ix4 b c h w) * p (ix4 b d h w) := rfl

end Cert.Spec

end
-- ==== Proof.Region0.lean ====
/-
  The first kernel region's two result arrays, as functions of the region's entry contents.

  The region walks the two batches. At batch b its body reads the batch's logits x[b, ·, h, w] (121 bins per pixel) and the
  batch's target bins, and leaves two blocks of 120 bins per pixel:

  * e^(x[b,d,h,w] − M) / Σ_k e^(x[b,k,h,w] − M), with M the largest of the pixel's 121 logits taken from −∞:
    the maximum and the sum run over the bin axis, are given a unit bin axis again and spread back along it, and the
    last bin is dropped;
  * 1 where the word counting the bins along the bin axis equals the pixel's target bin, else 0: the one-bit comparison
    widened to a word and read as a signed integer.

  Each block is written back to batch b of its array, and the two batches' blocks fill the arrays: so the arrays end
  at `probs` of the logits and `onehot` of the target bins (`final_probs`, `final_target`).
-/
import proofs.«108458_j77403900609179_1_alg».proof.Proof.Gen.KernelIdeal.Frame
import proofs.«108458_j77403900609179_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec Idealize.ShloMosaic Idealize.ShloMosaic.TcCoe Idealize.SL.Sem Idealize.ShloMosaic.ValueIdx
open Idealize.ShloMosaic.Pipeline (Dat)

/-! ## The two payloads, element by element -/

/-- A [1,47,156] vector given a unit bin axis and then spread along n bins reads, at (0, k, h, w), its element at (0, h, w). -/
theorem spread_apply {α : Type} {n : Nat} (x : S1x47x156.Idx → α) (hc : S1x47x156.ShapeCasts S1x1x47x156)
    (hb : S1x1x47x156.Broadcasts ⟨4, ![1, n, 47, 156]⟩) (k : Fin n) (h : Fin 47) (w : Fin 156) :
    broadcastTo ⟨4, ![1, n, 47, 156]⟩ (shapeCast S1x1x47x156 x hc) hb (ix4 0 k h w) = x (ix3 0 h w) := by
  refine (broadcastTo_apply _ hb (ix4 0 k h w) (ix4 0 0 h w) (fun a => ?_)).trans ?_
  · match a with
    | ⟨0, _⟩ => rfl
    | ⟨1, _⟩ => rfl
    | ⟨2, _⟩ => rfl
    | ⟨3, _⟩ => rfl
  · refine (shapeCast_addUnit_apply _ x hc _).trans ?_
    exact congrArg x (funext fun a => by
      match a with
      | ⟨0, _⟩ => rfl
      | ⟨1, _⟩ => rfl
      | ⟨2, _⟩ => rfl)

/-- The largest of the 121 logits of pixel (h, w) of one batch's block, taken from −∞. -/
def blockMax (v0 : S1x121x47x156.Idx → EReal) (h : Fin 47) (w : Fin 156) : EReal :=
  (Finset.univ : Finset (Fin 121)).fold max negInf (fun k => v0 (ix4 0 k h w))

/-- The index of bin k inserted into (0, h, w) is (0, k, h, w). -/
theorem lift_eq (h : Fin 47) (w : Fin 156) (k : Fin 121) :
    reduces_S1x121x47x156_S1x47x156.lift (ix3 0 h w) k = ix4 0 k h w :=
  funext fun a => Fin.ext (by
    match a with
    | ⟨0, _⟩ => rfl
    | ⟨1, _⟩ => rfl
    | ⟨2, _⟩ => rfl
    | ⟨3, _⟩ => rfl)

/-- The block's maximum over the bin axis, read at pixel (h, w). -/
theorem rowmax_apply (v0 : S1x121x47x156.Idx → EReal) (h : Fin 47) (w : Fin 156) :
    multiReduction (F := Ideal) .maximumf [1] S1x47x156 v0 0xFF800000#32 reduces_S1x121x47x156_S1x47x156 (.inl rfl) rfl (ix3 0 h w)
      = blockMax v0 h w := by
  refine (Ideal.multiReduction_maximumf_single _ _ _ _ _ _).trans ?_
  unfold blockMax
  refine congrArg (Finset.fold max _ · _) ?_
  funext k
  exact congrArg v0 (lift_eq h w k)

/-- e^(logit − the pixel's largest logit) over one batch's block: what the kernel sums and then divides. -/
abbrev expBlk (v0 : S1x121x47x156.Idx → EReal) : S1x121x47x156.Idx → EReal :=
  exp (F := Ideal) (subf v0 (broadcastTo S1x121x47x156 (shapeCast S1x1x47x156
    (multiReduction (F := Ideal) .maximumf [1] S1x47x156 v0 0xFF800000#32 reduces_S1x121x47x156_S1x47x156 (.inl rfl) rfl)
    shapeCasts_S1x47x156_S1x1x47x156) broadcasts_S1x1x47x156_S1x121x47x156))

/-- Read at (0, k, h, w): e^(the logit − the pixel's maximum). -/
theorem expBlk_apply (v0 : S1x121x47x156.Idx → EReal) (k : Fin 121) (h : Fin 47) (w : Fin 156) :
    expBlk v0 (ix4 0 k h w) = Ideal.exp (v0 (ix4 0 k h w) - blockMax v0 h w) := by
  show Ideal.exp (v0 (ix4 0 k h w) - broadcastTo S1x121x47x156 _ _ (ix4 0 k h w)) = _
  exact congrArg (fun m => Ideal.exp (v0 (ix4 0 k h w) - m))
    ((spread_apply _ _ broadcasts_S1x1x47x156_S1x121x47x156 k h w).trans (rowmax_apply v0 h w))

/-- The block's sum over the bin axis of those exponentials, read at pixel (h, w). -/
theorem rowsum_apply (v0 : S1x121x47x156.Idx → EReal) (h : Fin 47) (w : Fin 156) :
    multiReduction (F := Ideal) .add [1] S1x47x156 (expBlk v0) 0x00000000#32 reduces_S1x121x47x156_S1x47x156 (.inl rfl) rfl (ix3 0 h w)
      = ∑ k : Fin 121, Ideal.exp (v0 (ix4 0 k h w) - blockMax v0 h w) := by
  refine (Ideal.multiReduction_add_single _ _ _ _ _ _).trans ?_
  refine Finset.sum_congr rfl fun k _ => ?_
  rw [lift_eq h w k]
  exact expBlk_apply v0 k h w

/-- THE FIRST PAYLOAD at (0, d, h, w), d < 120: the softmax over the 121 bins of pixel (h, w), bin d. -/
theorem pay1_apply (v0 : S1x121x47x156.Idx → EReal) (d : Fin 120) (h : Fin 47) (w : Fin 156) :
    k0_pay1 (F := Ideal) v0 (ix4 0 d h w)
      = Ideal.div (Ideal.exp (v0 (ix4 0 (Fin.castLE (by decide) d) h w) - blockMax v0 h w))
          (∑ k : Fin 121, Ideal.exp (v0 (ix4 0 k h w) - blockMax v0 h w)) := by
  unfold k0_pay1
  refine (extractStridedSlice_apply _ _ _ (ix4 0 d h w) (ix4 0 (Fin.castLE (by decide) d) h w) (fun a => ?_)).trans ?_
  · match a with
    | ⟨0, _⟩ => rfl
    | ⟨1, _⟩ => show d.val = 0 + d.val; omega
    | ⟨2, _⟩ => show h.val = 0 + h.val; omega
    | ⟨3, _⟩ => show w.val = 0 + w.val; omega
  · show Ideal.div (expBlk v0 (ix4 0 (Fin.castLE (by decide) d) h w)) (broadcastTo S1x121x47x156 _ _ (ix4 0 (Fin.castLE (by decide) d) h w)) = _
    rw [expBlk_apply, spread_apply _ _ broadcasts_S1x1x47x156_S1x121x47x156, rowsum_apply]

/-- The word of a comparison for equality: 1 where the words agree, else 0. -/
theorem cmpi_eq_word (x y : BitVec 32) : IntOp.cmpi .eq x y = if y = x then 1#1 else 0#1 := by
  unfold IntOp.cmpi
  by_cases e : y = x
  · subst e; simp
  · rw [if_neg e]
    have : (x == y) = false := by simpa using (fun h : x = y => e h.symm)
    simp [this]

/-- THE SECOND PAYLOAD at (0, d, h, w): 1 where the pixel's target bin is d, else 0. -/
theorem pay2_apply (v : S1x47x156.Idx → BitVec 32) (d : Fin 120) (h : Fin 47) (w : Fin 156) :
    k0_pay2 (F := Ideal) v (ix4 0 d h w) = if v (ix3 0 h w) = BitVec.ofNat 32 d.val then 1 else 0 := by
  unfold k0_pay2
  show FloatOps.sitofp (F := Ideal) .f32 ((IntOp.cmpi .eq (iota .tc S1x120x47x156 32 [1] iota_S1x120x47x156_d1_w32 (ix4 0 d h w))
    (broadcastTo S1x120x47x156 _ broadcasts_S1x1x47x156_S1x120x47x156 (ix4 0 d h w))).setWidth 32) = _
  rw [iota_single_apply, spread_apply _ _ broadcasts_S1x1x47x156_S1x120x47x156, cmpi_eq_word]
  show ((((if v (ix3 0 h w) = BitVec.ofNat 32 d.val then 1#1 else 0#1).setWidth 32).toInt : ℝ) : EReal) = _
  by_cases e : v (ix3 0 h w) = BitVec.ofNat 32 d.val
  · rw [if_pos e, if_pos e, (by decide : ((1#1 : BitVec 1).setWidth 32).toInt = 1)]; simp
  · rw [if_neg e, if_neg e, (by decide : ((0#1 : BitVec 1).setWidth 32).toInt = 0)]; simp

/-! ## From one batch's blocks to the arrays -/

section Run

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The index maps over the grid. The probabilities' window: its block index is at most 1 on the batch axis and 0 on the others. -/
theorem idx_out2 : ∀ t : Fin cfg0.N, win0_2.index t (0 : Fin 4) ≤ 1
    ∧ win0_2.index t (1 : Fin 4) = 0 ∧ win0_2.index t (2 : Fin 4) = 0 ∧ win0_2.index t (3 : Fin 4) = 0 :=
  (by decide +kernel : ∀ t : Fin grid0.N, _)

/-- The one-hot target's window moves with it. -/
theorem idx_out3 : ∀ t : Fin cfg0.N, win0_3.index t (0 : Fin 4) = win0_2.index t (0 : Fin 4)
    ∧ win0_3.index t (1 : Fin 4) = 0 ∧ win0_3.index t (2 : Fin 4) = 0 ∧ win0_3.index t (3 : Fin 4) = 0 :=
  (by decide +kernel : ∀ t : Fin grid0.N, _)

/-- So does the logits' window, -/
theorem idx_in0 : ∀ t : Fin cfg0.N, win0_0.index t (0 : Fin 4) = win0_2.index t (0 : Fin 4)
    ∧ win0_0.index t (1 : Fin 4) = 0 ∧ win0_0.index t (2 : Fin 4) = 0 ∧ win0_0.index t (3 : Fin 4) = 0 :=
  (by decide +kernel : ∀ t : Fin grid0.N, _)

/-- and the target bins' window. -/
theorem idx_in1 : ∀ t : Fin cfg0.N, win0_1.index t (0 : Fin 3) = win0_2.index t (0 : Fin 4)
    ∧ win0_1.index t (1 : Fin 3) = 0 ∧ win0_1.index t (2 : Fin 3) = 0 :=
  (by decide +kernel : ∀ t : Fin grid0.N, _)

/-- Each batch is some point's. -/
theorem idx_onto : ∀ q : Fin 2, ∃ t : Fin cfg0.N, win0_2.index t (0 : Fin 4) = q.val :=
  (by decide +kernel : ∀ q : Fin 2, ∃ t : Fin grid0.N, win0_2.index t (0 : Fin 4) = q.val)

/-- The batch a grid point works on. -/
def batchOf (t : Fin cfg0.N) : Fin 2 := ⟨win0_2.index t (0 : Fin 4), Nat.lt_succ_of_le (idx_out2 t).1⟩

/-- Where element y of the probabilities' block at point t sits in the array: batch `batchOf t`, the same bin and pixel. -/
theorem emb_out2 (t : Fin cfg0.N) (y : S1x120x47x156.Idx) :
    ((cfg0.win 2).blk t).view.emb y = (ix4 (batchOf t) (y 1) (y 2) (y 3) : S2x120x47x156.Idx) := by
  obtain ⟨e0, e1, e2, e3⟩ := idx_out2 t
  funext a; apply Fin.ext
  match a with
  | ⟨0, _⟩ => show win0_2.index t (0 : Fin 4) * 1 + 1 * (y 0).val = win0_2.index t (0 : Fin 4); have hy : (y 0).val < 1 := (y 0).isLt; omega
  | ⟨1, _⟩ => show win0_2.index t (1 : Fin 4) * 120 + 1 * (y 1).val = (y 1).val; omega
  | ⟨2, _⟩ => show win0_2.index t (2 : Fin 4) * 47 + 1 * (y 2).val = (y 2).val; omega
  | ⟨3, _⟩ => show win0_2.index t (3 : Fin 4) * 156 + 1 * (y 3).val = (y 3).val; omega

/-- The one-hot target's block sits the same way. -/
theorem emb_out3 (t : Fin cfg0.N) (y : S1x120x47x156.Idx) :
    ((cfg0.win 3).blk t).view.emb y = (ix4 (batchOf t) (y 1) (y 2) (y 3) : S2x120x47x156.Idx) := by
  obtain ⟨e0, e1, e2, e3⟩ := idx_out3 t
  funext a; apply Fin.ext
  match a with
  | ⟨0, _⟩ => show win0_3.index t (0 : Fin 4) * 1 + 1 * (y 0).val = win0_2.index t (0 : Fin 4); have hy : (y 0).val < 1 := (y 0).isLt; omega
  | ⟨1, _⟩ => show win0_3.index t (1 : Fin 4) * 120 + 1 * (y 1).val = (y 1).val; omega
  | ⟨2, _⟩ => show win0_3.index t (2 : Fin 4) * 47 + 1 * (y 2).val = (y 2).val; omega
  | ⟨3, _⟩ => show win0_3.index t (3 : Fin 4) * 156 + 1 * (y 3).val = (y 3).val; omega

/-- The logits' block at point t is batch `batchOf t` of the logits, all 121 bins. -/
theorem emb_in0 (t : Fin cfg0.N) (y : S1x121x47x156.Idx) :
    ((cfg0.win 0).blk t).view.emb y = (ix4 (batchOf t) (y 1) (y 2) (y 3) : S2x121x47x156.Idx) := by
  obtain ⟨e0, e1, e2, e3⟩ := idx_in0 t
  funext a; apply Fin.ext
  match a with
  | ⟨0, _⟩ => show win0_0.index t (0 : Fin 4) * 1 + 1 * (y 0).val = win0_2.index t (0 : Fin 4); have hy : (y 0).val < 1 := (y 0).isLt; omega
  | ⟨1, _⟩ => show win0_0.index t (1 : Fin 4) * 121 + 1 * (y 1).val = (y 1).val; omega
  | ⟨2, _⟩ => show win0_0.index t (2 : Fin 4) * 47 + 1 * (y 2).val = (y 2).val; omega
  | ⟨3, _⟩ => show win0_0.index t (3 : Fin 4) * 156 + 1 * (y 3).val = (y 3).val; omega

/-- The target bins' block at point t is batch `batchOf t` of the bins. -/
theorem emb_in1 (t : Fin cfg0.N) (y : S1x47x156.Idx) :
    ((cfg0.win 1).blk t).view.emb y = (ix3 (batchOf t) (y 1) (y 2) : S2x47x156.Idx) := by
  obtain ⟨e0, e1, e2⟩ := idx_in1 t
  funext a; apply Fin.ext
  match a with
  | ⟨0, _⟩ => show win0_1.index t (0 : Fin 3) * 1 + 1 * (y 0).val = win0_2.index t (0 : Fin 4); have hy : (y 0).val < 1 := (y 0).isLt; omega
  | ⟨1, _⟩ => show win0_1.index t (1 : Fin 3) * 47 + 1 * (y 1).val = (y 1).val; omega
  | ⟨2, _⟩ => show win0_1.index t (2 : Fin 3) * 156 + 1 * (y 2).val = (y 2).val; omega

/-- Batch b of the logits, as one block. -/
def logitsOf (x : S2x121x47x156.Idx → EReal) (b : Fin 2) : S1x121x47x156.Idx → EReal :=
  fun y => x (ix4 b (y 1) (y 2) (y 3))

/-- Batch b of the target bins, as one block. -/
def binsOf (x : S2x47x156.Idx → BitVec 32) (b : Fin 2) : S1x47x156.Idx → BitVec 32 :=
  fun y => x (ix3 b (y 1) (y 2))

/-- What the body reads through the logits' window at point t. -/
theorem iblk_logits (c : Dev nD) (t : Fin cfg0.N) :
    iblk0 V c 0 t = logitsOf (V c main_arg1) (batchOf t) := by
  refine funext fun (y : S1x121x47x156.Idx) => ?_
  show (V c main_arg1 : S2x121x47x156.Idx → EReal) (((cfg0.win 0).blk t).view.emb y) = _
  rw [emb_in0]; rfl

/-- What it reads through the target bins' window. -/
theorem iblk_bins (c : Dev nD) (t : Fin cfg0.N) :
    iblk0 V c 1 t = binsOf (V c main_arg3) (batchOf t) := by
  refine funext fun (y : S1x47x156.Idx) => ?_
  show (V c main_arg3 : S2x47x156.Idx → BitVec 32) (((cfg0.win 1).blk t).view.emb y) = _
  rw [emb_in1]; rfl

/-- The first payload of batch b's logits is batch b of the softmax's first 120 bins. -/
theorem pay1_logitsOf (x : S2x121x47x156.Idx → EReal) (b : Fin 2) (d : Fin 120) (h : Fin 47) (w : Fin 156) :
    k0_pay1 (F := Ideal) (logitsOf x b) (ix4 0 d h w) = probsAt x b d h w :=
  (pay1_apply (logitsOf x b) d h w).trans rfl

/-- The second payload of batch b's bins is batch b of the one-hot target. -/
theorem pay2_binsOf (x : S2x47x156.Idx → BitVec 32) (b : Fin 2) (d : Fin 120) (h : Fin 47) (w : Fin 156) :
    k0_pay2 (F := Ideal) (binsOf x b) (ix4 0 d h w) = onehotAt x b d h w :=
  (pay2_apply (binsOf x b) d h w).trans rfl

/-! ### The probabilities (window 2) -/

/-- WHAT POINT t WRITES BACK is its batch's block of the softmax's first 120 bins. -/
theorem flushed_probs (c : Dev nD) (t : Fin cfg0.N) :
    (dat0 V c).flushed 2 t = ((cfg0.win 2).blk t).view.read (Elt Ideal) (probs (V c main_arg1)) := by
  show (cfg0.win 2).cut (grid0.coords t) ((dat0 V c).after 2 t) = _
  rw [after0_2]
  unfold out0_2
  rw [View.canon_unit_zero hz4]
  simp only [View.ld_unit_zero (S := S1x121x47x156) hz4]
  rw [iblk_logits]
  refine funext fun (j : S1x120x47x156.Idx) => ?_
  show k0_pay1 (F := Ideal) (logitsOf (V c main_arg1) (batchOf t)) j = probs (V c main_arg1) (((cfg0.win 2).blk t).view.emb j)
  refine Eq.trans ?_ (congrArg (probs (V c main_arg1)) (emb_out2 t j)).symm
  obtain ⟨a, d, h, w, rfl⟩ : ∃ (a : Fin 1) (d : Fin 120) (h : Fin 47) (w : Fin 156), j = ix4 a d h w :=
    ⟨j 0, j 1, j 2, j 3, eq_ix4 j⟩
  obtain rfl : a = 0 := Subsingleton.elim _ _
  exact pay1_logitsOf (V c main_arg1) (batchOf t) d h w

/-- An index of the probabilities' array is in point t's block iff each coordinate is in the block's range on its axis. -/
theorem mem_blk2 (t : Fin cfg0.N) (i : S2x120x47x156.Idx) :
    i ∈ ((cfg0.win 2).blk t).view.set ↔ ∀ a : Fin 4, win0_2.index t a * S1x120x47x156.size a ≤ (i a).val
      ∧ (i a).val < win0_2.index t a * S1x120x47x156.size a + S1x120x47x156.size a := by
  show i ∈ ((View.whole main_v13_0).slice (win0_2.rect t)).set ↔ _
  rw [View.set_slice_whole, Rect.mem_set_unit]
  exact Iff.rfl

/-- Every index is in the block of the point that works on its batch. -/
theorem cover2 (i : S2x120x47x156.Idx) :
    ∃ t : Fin cfg0.N, (cfg0.win 2).flush t = true ∧ i ∈ ((cfg0.win 2).blk t).view.set := by
  obtain ⟨t, ht⟩ := idx_onto (i 0)
  obtain ⟨e0, e1, e2, e3⟩ := idx_out2 t
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 120 ≤ (i 1).val ∧ (i 1).val < win0_2.index t (1 : Fin 4) * 120 + 120; have hi : (i 1).val < 120 := (i 1).isLt; omega
  | ⟨2, _⟩ => show win0_2.index t (2 : Fin 4) * 47 ≤ (i 2).val ∧ (i 2).val < win0_2.index t (2 : Fin 4) * 47 + 47; have hi : (i 2).val < 47 := (i 2).isLt; omega
  | ⟨3, _⟩ => show win0_2.index t (3 : Fin 4) * 156 ≤ (i 3).val ∧ (i 3).val < win0_2.index t (3 : Fin 4) * 156 + 156; have hi : (i 3).val < 156 := (i 3).isLt; omega

/-- THE PROBABILITIES' ARRAY after the region: the softmax over the 121 bins of the logits, its first 120 bins. -/
theorem final_probs (c : Dev nD) : (dat0 V c).arrAt 2 cfg0.N = probs (V c main_arg1) :=
  (dat0 V c).arrAt_eq_of_cover 2 (probs (V c main_arg1)) (fun t _ => flushed_probs V c t) cover2

/-! ### The one-hot target (window 3) -/

/-- WHAT POINT t WRITES BACK is its batch's block of the one-hot target. -/
theorem flushed_target (c : Dev nD) (t : Fin cfg0.N) :
    (dat0 V c).flushed 3 t = ((cfg0.win 3).blk t).view.read (Elt Ideal) (onehot (V c main_arg3)) := by
  show (cfg0.win 3).cut (grid0.coords t) ((dat0 V c).after 3 t) = _
  rw [after0_3]
  unfold out0_3
  rw [View.canon_unit_zero hz4]
  simp only [View.ld_unit_zero (S := S1x47x156) hz3]
  rw [iblk_bins]
  refine funext fun (j : S1x120x47x156.Idx) => ?_
  show k0_pay2 (F := Ideal) (binsOf (V c main_arg3) (batchOf t)) j = onehot (V c main_arg3) (((cfg0.win 3).blk t).view.emb j)
  refine Eq.trans ?_ (congrArg (onehot (V c main_arg3)) (emb_out3 t j)).symm
  obtain ⟨a, d, h, w, rfl⟩ : ∃ (a : Fin 1) (d : Fin 120) (h : Fin 47) (w : Fin 156), j = ix4 a d h w :=
    ⟨j 0, j 1, j 2, j 3, eq_ix4 j⟩
  obtain rfl : a = 0 := Subsingleton.elim _ _
  exact pay2_binsOf (V c main_arg3) (batchOf t) d h w

/-- An index of the target's array is in point t's block iff each coordinate is in the block's range on its axis. -/
theorem mem_blk3 (t : Fin cfg0.N) (i : S2x120x47x156.Idx) :
    i ∈ ((cfg0.win 3).blk t).view.set ↔ ∀ a : Fin 4, win0_3.index t a * S1x120x47x156.size a ≤ (i a).val
      ∧ (i a).val < win0_3.index t a * S1x120x47x156.size a + S1x120x47x156.size a := by
  show i ∈ ((View.whole main_v13_1).slice (win0_3.rect t)).set ↔ _
  rw [View.set_slice_whole, Rect.mem_set_unit]
  exact Iff.rfl

/-- Every index is in the block of the point that works on its batch. -/
theorem cover3 (i : S2x120x47x156.Idx) :
    ∃ t : Fin cfg0.N, (cfg0.win 3).flush t = true ∧ i ∈ ((cfg0.win 3).blk t).view.set := by
  obtain ⟨t, ht⟩ := idx_onto (i 0)
  obtain ⟨e0, e1, e2, e3⟩ := idx_out3 t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 120 ≤ (i 1).val ∧ (i 1).val < win0_3.index t (1 : Fin 4) * 120 + 120; have hi : (i 1).val < 120 := (i 1).isLt; omega
  | ⟨2, _⟩ => show win0_3.index t (2 : Fin 4) * 47 ≤ (i 2).val ∧ (i 2).val < win0_3.index t (2 : Fin 4) * 47 + 47; have hi : (i 2).val < 47 := (i 2).isLt; omega
  | ⟨3, _⟩ => show win0_3.index t (3 : Fin 4) * 156 ≤ (i 3).val ∧ (i 3).val < win0_3.index t (3 : Fin 4) * 156 + 156; have hi : (i 3).val < 156 := (i 3).isLt; omega

/-- THE TARGET'S ARRAY after the region: 1 at each pixel's target bin, 0 at the other 119 bins. -/
theorem final_target (c : Dev nD) : (dat0 V c).arrAt 3 cfg0.N = onehot (V c main_arg3) :=
  (dat0 V c).arrAt_eq_of_cover 3 (onehot (V c main_arg3)) (fun t _ => flushed_target V c t) cover3

end Run

end Cert.KernelIdeal.Region0

end
-- ==== Proof.Region1.lean ====
/-
  The second kernel region's two result arrays.

  The region runs over a grid of 2 × 15 points (b, d). At point (b, d) it holds the image block
  img[b, 0..31, ·, ·], one block of 8 depth bins p[b, 8d..8d+7, ·, ·] of each of the two distributions, and writes
  the blocks out[b, 0..31, 8d..8d+7, ·, ·] of the two results, each the product img[b,c,h,w] · p[b,k,h,w].
  The 30 result blocks tile the result array, so each result array is the outer product `frustum img p` everywhere.
-/
import proofs.«108458_j77403900609179_1_alg».proof.Proof.Gen.KernelIdeal.Frame
import proofs.«108458_j77403900609179_1_alg».proof.Proof.Spec
import Idealize.ShloMosaic.Lib.Pipeline.Value
import Idealize.ShloMosaic.Lib.ValueLayout

set_option maxRecDepth 16384

noncomputable section

namespace Cert.KernelIdeal.Region1

open Cert.KernelIdeal Cert.KernelIdeal.Gen Cert.Spec Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's products at an index of the result block -/

/-- The image block with a unit bin axis put in, read at (0, c, 0, h, w), is the image block at (0, c, h, w): the two
    indices have the same row-major position. -/
theorem imgUnitBin_apply (x0 : S1x32x47x156.Idx → EReal) (c : Fin 32) (h : Fin 47) (w : Fin 156) :
    k1_pay1 (F := Ideal) x0 (ix5 0 c 0 h w) = x0 (ix4 0 c h w) := by
  unfold k1_pay1
  refine (shapeCast_apply x0 _ (ix5 0 c 0 h w) (ix4 0 c h w) ?_)
  rw [Shape.rowMajor_val_four, Shape.rowMajor_val_five]
  show (((0 * 32 + c.val) * 47 + h.val) * 156 + w.val) = ((((0 * 32 + c.val) * 1 + 0) * 47 + h.val) * 156 + w.val)
  omega

/-- A block of 8 bins with a unit channel axis put in, read at (0, 0, k, h, w), is the block at (0, k, h, w). -/
theorem binsUnitChannel_apply (x1 : S1x8x47x156.Idx → EReal) (k : Fin 8) (h : Fin 47) (w : Fin 156) :
    shapeCast S1x1x8x47x156 (shapeCast S1x8x47x156 x1 shapeCasts_S1x8x47x156_S1x8x47x156) shapeCasts_S1x8x47x156_S1x1x8x47x156
        (ix5 0 0 k h w) = x1 (ix4 0 k h w) := by
  rw [shapeCast_self]
  refine (shapeCast_apply x1 _ (ix5 0 0 k h w) (ix4 0 k h w) ?_)
  rw [Shape.rowMajor_val_four, Shape.rowMajor_val_five]
  show (((0 * 8 + k.val) * 47 + h.val) * 156 + w.val) = ((((0 * 1 + 0) * 8 + k.val) * 47 + h.val) * 156 + w.val)
  omega

/-- The image block spread over the 8 bins, at (0, c, k, h, w): the image block at (0, c, h, w). -/
theorem imgSpread_apply (x0 : S1x32x47x156.Idx → EReal) (c : Fin 32) (k : Fin 8) (h : Fin 47) (w : Fin 156) :
    broadcastTo S1x32x8x47x156 (k1_pay1 (F := Ideal) x0) broadcasts_S1x32x1x47x156_S1x32x8x47x156 (ix5 0 c k h w)
      = x0 (ix4 0 c h w) := by
  refine (broadcastTo_apply _ _ (ix5 0 c k h w) (ix5 0 c 0 h w) ?_).trans (imgUnitBin_apply x0 c h w)
  intro a
  match a with
  | ⟨0, _⟩ => rfl
  | ⟨1, _⟩ => rfl
  | ⟨2, _⟩ => rfl
  | ⟨3, _⟩ => rfl
  | ⟨4, _⟩ => rfl

/-- The 8-bin block spread over the 32 channels, at (0, c, k, h, w): the block at (0, k, h, w). -/
theorem binsSpread_apply (x1 : S1x8x47x156.Idx → EReal) (c : Fin 32) (k : Fin 8) (h : Fin 47) (w : Fin 156) :
    broadcastTo S1x32x8x47x156
        (shapeCast S1x1x8x47x156 (shapeCast S1x8x47x156 x1 shapeCasts_S1x8x47x156_S1x8x47x156) shapeCasts_S1x8x47x156_S1x1x8x47x156)
        broadcasts_S1x1x8x47x156_S1x32x8x47x156 (ix5 0 c k h w)
      = x1 (ix4 0 k h w) := by
  refine (broadcastTo_apply _ _ (ix5 0 c k h w) (ix5 0 0 k h w) ?_).trans (binsUnitChannel_apply x1 k h w)
  intro a
  match a with
  | ⟨0, _⟩ => rfl
  | ⟨1, _⟩ => rfl
  | ⟨2, _⟩ => rfl
  | ⟨3, _⟩ => rfl
  | ⟨4, _⟩ => rfl

/-- The first product block at (0, c, k, h, w): the image block at (0, c, h, w) times the first distribution's block at
    (0, k, h, w). -/
theorem prod_apply (x0 : S1x32x47x156.Idx → EReal) (x1 : S1x8x47x156.Idx → EReal)
    (c : Fin 32) (k : Fin 8) (h : Fin 47) (w : Fin 156) :
    k1_pay2 (F := Ideal) x0 x1 (ix5 0 c k h w) = x0 (ix4 0 c h w) * x1 (ix4 0 k h w) := by
  unfold k1_pay2
  refine (ValueIdx.mulf_apply _ _ _).trans ?_
  exact congrArg₂ (fun x y : EReal => x * y) (imgSpread_apply x0 c k h w) (binsSpread_apply x1 c k h w)

/-- The second product block at (0, c, k, h, w): the same product with the second distribution's block. -/
theorem prodT_apply (x0 : S1x32x47x156.Idx → EReal) (x2 : S1x8x47x156.Idx → EReal)
    (c : Fin 32) (k : Fin 8) (h : Fin 47) (w : Fin 156) :
    k1_pay3 (F := Ideal) x0 x2 (ix5 0 c k h w) = x0 (ix4 0 c h w) * x2 (ix4 0 k h w) := by
  unfold k1_pay3
  refine (ValueIdx.mulf_apply _ _ _).trans ?_
  exact congrArg₂ (fun x y : EReal => x * y) (imgSpread_apply x0 c k h w) (binsSpread_apply x2 c k h w)

/-! ## Where the blocks of a grid point lie -/

/-- The zero offsets of a whole block, at rank 4 and at rank 5. -/
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-! ## The result array of window 3 -/

/-- The block indices at a grid point, point by point over the 30 points: the image block follows the result block on
    the batch axis, the bin block on the batch and the bin axes; every other component is zero; the batch index is at
    most 1 and the bin-block index at most 14. -/
theorem idx_facts_ff : ∀ t : Fin cfg1.N,
    win1_0.index t (0 : Fin 4) = win1_3.index t (0 : Fin 5)
    ∧ win1_0.index t (1 : Fin 4) = 0 ∧ win1_0.index t (2 : Fin 4) = 0 ∧ win1_0.index t (3 : Fin 4) = 0
    ∧ win1_1.index t (0 : Fin 4) = win1_3.index t (0 : Fin 5)
    ∧ win1_1.index t (1 : Fin 4) = win1_3.index t (2 : Fin 5)
    ∧ win1_1.index t (2 : Fin 4) = 0 ∧ win1_1.index t (3 : Fin 4) = 0
    ∧ win1_3.index t (1 : Fin 5) = 0 ∧ win1_3.index t (3 : Fin 5) = 0 ∧ win1_3.index t (4 : Fin 5) = 0
    ∧ win1_3.index t (0 : Fin 5) ≤ 1 ∧ win1_3.index t (2 : Fin 5) ≤ 14 :=
  (by decide +kernel : ∀ t : Fin grid1.N, _)

/-- Every pair (batch, bin block) is the result block of some grid point. -/
theorem idx_onto_ff : ∀ (q0 : Fin 2) (q2 : Fin 15), ∃ t : Fin cfg1.N,
    win1_3.index t (0 : Fin 5) = q0.val ∧ win1_3.index t (2 : Fin 5) = q2.val :=
  (by decide +kernel : ∀ (q0 : Fin 2) (q2 : Fin 15), ∃ t : Fin grid1.N,
    win1_3.index t (0 : Fin 5) = q0.val ∧ win1_3.index t (2 : Fin 5) = q2.val)

/-- At a grid point, the product of the two input blocks at (0, c, k, h, w) is the outer product of the two arrays at
    the place of the result array that the result block's (0, c, k, h, w) stands for. A block's coordinate in its
    array is the block index times the block size plus the coordinate inside the block; the image block shares the
    result block's batch index and the bin block its batch and bin-block indices, so the three places name the same
    batch, channel, bin, row and column. -/
theorem prod_at_point_ff (c : Dev nD) (t : Fin cfg1.N) (b : Fin 32) (k : Fin 8) (h : Fin 47) (w : Fin 156) :
    k1_pay2 (F := Ideal) (iblk1 V c 0 t) (iblk1 V c 1 t) (ix5 0 b k h w)
      = frustum (V c main_arg0) (V c main_v13_0) (((cfg1.win 3).blk t).view.emb (ix5 0 b k h w)) := by
  obtain ⟨e0, e1, e2, e3, e4, e5, e6, e7, e8, e9, e10, e11, e12⟩ := idx_facts_ff t
  refine (prod_apply _ _ b k h w).trans ?_
  have hb : b.val < 32 := b.isLt
  have hk : k.val < 8 := k.isLt
  have hh : h.val < 47 := h.isLt
  have hw : w.val < 156 := w.isLt
  have h0 : ((cfg1.win 0).blk t).view.emb (ix4 0 b h w)
      = ix4 (((cfg1.win 3).blk t).view.emb (ix5 0 b k h w) 0) (((cfg1.win 3).blk t).view.emb (ix5 0 b k h w) 1)
          (((cfg1.win 3).blk t).view.emb (ix5 0 b k h w) 3) (((cfg1.win 3).blk t).view.emb (ix5 0 b k h w) 4) := by
    funext a; apply Fin.ext
    match a with
    | ⟨0, _⟩ => show win1_0.index t (0 : Fin 4) * 1 + 1 * 0 = win1_3.index t (0 : Fin 5) * 1 + 1 * 0; omega
    | ⟨1, _⟩ => show win1_0.index t (1 : Fin 4) * 32 + 1 * b.val = win1_3.index t (1 : Fin 5) * 32 + 1 * b.val; omega
    | ⟨2, _⟩ => show win1_0.index t (2 : Fin 4) * 47 + 1 * h.val = win1_3.index t (3 : Fin 5) * 47 + 1 * h.val; omega
    | ⟨3, _⟩ => show win1_0.index t (3 : Fin 4) * 156 + 1 * w.val = win1_3.index t (4 : Fin 5) * 156 + 1 * w.val; omega
  have h1 : ((cfg1.win 1).blk t).view.emb (ix4 0 k h w)
      = ix4 (((cfg1.win 3).blk t).view.emb (ix5 0 b k h w) 0) (((cfg1.win 3).blk t).view.emb (ix5 0 b k h w) 2)
          (((cfg1.win 3).blk t).view.emb (ix5 0 b k h w) 3) (((cfg1.win 3).blk t).view.emb (ix5 0 b k h w) 4) := by
    funext a; apply Fin.ext
    match a with
    | ⟨0, _⟩ => show win1_1.index t (0 : Fin 4) * 1 + 1 * 0 = win1_3.index t (0 : Fin 5) * 1 + 1 * 0; omega
    | ⟨1, _⟩ => show win1_1.index t (1 : Fin 4) * 8 + 1 * k.val = win1_3.index t (2 : Fin 5) * 8 + 1 * k.val; omega
    | ⟨2, _⟩ => show win1_1.index t (2 : Fin 4) * 47 + 1 * h.val = win1_3.index t (3 : Fin 5) * 47 + 1 * h.val; omega
    | ⟨3, _⟩ => show win1_1.index t (3 : Fin 4) * 156 + 1 * w.val = win1_3.index t (4 : Fin 5) * 156 + 1 * w.val; omega
  exact congrArg₂ (fun x y : EReal => x * y)
    (congrArg (V c main_arg0 : S2x32x47x156.Idx → EReal) h0)
    (congrArg (V c main_v13_0 : S2x120x47x156.Idx → EReal) h1)

/-- What a grid point writes back to window 3's array is its block of the outer product: the body stores the product
    of its two whole input blocks over its whole result block. -/
theorem flushed_ff_eq (c : Dev nD) (t : Fin cfg1.N) :
    (dat1 V c).flushed 3 t = ((cfg1.win 3).blk t).view.read (Elt Ideal) (frustum (V c main_arg0) (V c main_v13_0)) := by
  show (cfg1.win 3).cut (grid1.coords t) ((dat1 V c).after 3 t) = _
  rw [after1_3]
  unfold out1_3
  rw [View.canon_unit_zero hz5]
  simp only [View.ld_unit_zero (S := S1x32x47x156) hz4, View.ld_unit_zero (S := S1x8x47x156) hz4]
  funext j
  have key : ∀ y : S1x32x8x47x156.Idx, k1_pay2 (F := Ideal) (iblk1 V c 0 t) (iblk1 V c 1 t) y
      = frustum (V c main_arg0) (V c main_v13_0) (((cfg1.win 3).blk t).view.emb y) := by
    intro y
    obtain ⟨a, b, k, h, w, rfl⟩ : ∃ a b k h w, y = ix5 a b k h w := ⟨y 0, y 1, y 2, y 3, y 4, eq_ix5 y⟩
    obtain rfl : a = 0 := Subsingleton.elim _ _
    exact prod_at_point_ff V c t b k h w
  exact key j

/-- An index of the array lies in a grid point's block exactly when each coordinate lies in the block's range on its
    axis. -/
theorem mem_blk_ff (t : Fin cfg1.N) (i : S2x32x120x47x156.Idx) :
    i ∈ ((cfg1.win 3).blk t).view.set ↔ ∀ a : Fin 5, win1_3.index t a * S1x32x8x47x156.size a ≤ (i a).val
      ∧ (i a).val < win1_3.index t a * S1x32x8x47x156.size a + S1x32x8x47x156.size a := by
  show i ∈ ((View.whole main_v14_0).slice (win1_3.rect t)).set ↔ _
  rw [View.set_slice_whole, Rect.mem_set_unit]
  exact Iff.rfl

/-- The blocks tile the array: the index (b, c, k, h, w) lies in the block of the point with batch index b and
    bin-block index k / 8. -/
theorem cover_ff (i : S2x32x120x47x156.Idx) :
    ∃ t : Fin cfg1.N, (cfg1.win 3).flush t = true ∧ i ∈ ((cfg1.win 3).blk t).view.set := by
  have hi0 : (i 0).val < 2 := (i 0).isLt
  have hi1 : (i 1).val < 32 := (i 1).isLt
  have hi2 : (i 2).val < 120 := (i 2).isLt
  have hi3 : (i 3).val < 47 := (i 3).isLt
  have hi4 : (i 4).val < 156 := (i 4).isLt
  obtain ⟨t, q0, q2⟩ := idx_onto_ff ⟨(i 0).val, hi0⟩ ⟨(i 2).val / 8, by omega⟩
  have q0' : win1_3.index t (0 : Fin 5) = (i 0).val := q0
  have q2' : win1_3.index t (2 : Fin 5) = (i 2).val / 8 := q2
  obtain ⟨e0, e1, e2, e3, e4, e5, e6, e7, e8, e9, e10, e11, e12⟩ := idx_facts_ff t
  refine ⟨t, flush1_3 t, ?_⟩
  rw [mem_blk_ff]
  intro a
  match a with
  | ⟨0, _⟩ => show win1_3.index t (0 : Fin 5) * 1 ≤ (i 0).val ∧ (i 0).val < win1_3.index t (0 : Fin 5) * 1 + 1; omega
  | ⟨1, _⟩ => show win1_3.index t (1 : Fin 5) * 32 ≤ (i 1).val ∧ (i 1).val < win1_3.index t (1 : Fin 5) * 32 + 32; omega
  | ⟨2, _⟩ => show win1_3.index t (2 : Fin 5) * 8 ≤ (i 2).val ∧ (i 2).val < win1_3.index t (2 : Fin 5) * 8 + 8; omega
  | ⟨3, _⟩ => show win1_3.index t (3 : Fin 5) * 47 ≤ (i 3).val ∧ (i 3).val < win1_3.index t (3 : Fin 5) * 47 + 47; omega
  | ⟨4, _⟩ => show win1_3.index t (4 : Fin 5) * 156 ≤ (i 4).val ∧ (i 4).val < win1_3.index t (4 : Fin 5) * 156 + 156; omega

/-- Window 3's array after the region: the outer product of the image features and the first distribution, everywhere. -/
theorem final_ff (c : Dev nD) : (dat1 V c).arrAt 3 cfg1.N = frustum (V c main_arg0) (V c main_v13_0) :=
  (dat1 V c).arrAt_eq_of_cover 3 (frustum (V c main_arg0) (V c main_v13_0)) (fun t _ => flushed_ff_eq V c t) cover_ff

/-! ## The result array of window 4 -/

/-- The block indices at a grid point, point by point over the 30 points: the image block follows the result block on
    the batch axis, the bin block on the batch and the bin axes; every other component is zero; the batch index is at
    most 1 and the bin-block index at most 14. -/
theorem idx_facts_fft : ∀ t : Fin cfg1.N,
    win1_0.index t (0 : Fin 4) = win1_4.index t (0 : Fin 5)
    ∧ win1_0.index t (1 : Fin 4) = 0 ∧ win1_0.index t (2 : Fin 4) = 0 ∧ win1_0.index t (3 : Fin 4) = 0
    ∧ win1_2.index t (0 : Fin 4) = win1_4.index t (0 : Fin 5)
    ∧ win1_2.index t (1 : Fin 4) = win1_4.index t (2 : Fin 5)
    ∧ win1_2.index t (2 : Fin 4) = 0 ∧ win1_2.index t (3 : Fin 4) = 0
    ∧ win1_4.index t (1 : Fin 5) = 0 ∧ win1_4.index t (3 : Fin 5) = 0 ∧ win1_4.index t (4 : Fin 5) = 0
    ∧ win1_4.index t (0 : Fin 5) ≤ 1 ∧ win1_4.index t (2 : Fin 5) ≤ 14 :=
  (by decide +kernel : ∀ t : Fin grid1.N, _)

/-- Every pair (batch, bin block) is the result block of some grid point. -/
theorem idx_onto_fft : ∀ (q0 : Fin 2) (q2 : Fin 15), ∃ t : Fin cfg1.N,
    win1_4.index t (0 : Fin 5) = q0.val ∧ win1_4.index t (2 : Fin 5) = q2.val :=
  (by decide +kernel : ∀ (q0 : Fin 2) (q2 : Fin 15), ∃ t : Fin grid1.N,
    win1_4.index t (0 : Fin 5) = q0.val ∧ win1_4.index t (2 : Fin 5) = q2.val)

/-- At a grid point, the product of the two input blocks at (0, c, k, h, w) is the outer product of the two arrays at
    the place of the result array that the result block's (0, c, k, h, w) stands for. A block's coordinate in its
    array is the block index times the block size plus the coordinate inside the block; the image block shares the
    result block's batch index and the bin block its batch and bin-block indices, so the three places name the same
    batch, channel, bin, row and column. -/
theorem prod_at_point_fft (c : Dev nD) (t : Fin cfg1.N) (b : Fin 32) (k : Fin 8) (h : Fin 47) (w : Fin 156) :
    k1_pay3 (F := Ideal) (iblk1 V c 0 t) (iblk1 V c 2 t) (ix5 0 b k h w)
      = frustum (V c main_arg0) (V c main_v13_1) (((cfg1.win 4).blk t).view.emb (ix5 0 b k h w)) := by
  obtain ⟨e0, e1, e2, e3, e4, e5, e6, e7, e8, e9, e10, e11, e12⟩ := idx_facts_fft t
  refine (prodT_apply _ _ b k h w).trans ?_
  have hb : b.val < 32 := b.isLt
  have hk : k.val < 8 := k.isLt
  have hh : h.val < 47 := h.isLt
  have hw : w.val < 156 := w.isLt
  have h0 : ((cfg1.win 0).blk t).view.emb (ix4 0 b h w)
      = ix4 (((cfg1.win 4).blk t).view.emb (ix5 0 b k h w) 0) (((cfg1.win 4).blk t).view.emb (ix5 0 b k h w) 1)
          (((cfg1.win 4).blk t).view.emb (ix5 0 b k h w) 3) (((cfg1.win 4).blk t).view.emb (ix5 0 b k h w) 4) := by
    funext a; apply Fin.ext
    match a with
    | ⟨0, _⟩ => show win1_0.index t (0 : Fin 4) * 1 + 1 * 0 = win1_4.index t (0 : Fin 5) * 1 + 1 * 0; omega
    | ⟨1, _⟩ => show win1_0.index t (1 : Fin 4) * 32 + 1 * b.val = win1_4.index t (1 : Fin 5) * 32 + 1 * b.val; omega
    | ⟨2, _⟩ => show win1_0.index t (2 : Fin 4) * 47 + 1 * h.val = win1_4.index t (3 : Fin 5) * 47 + 1 * h.val; omega
    | ⟨3, _⟩ => show win1_0.index t (3 : Fin 4) * 156 + 1 * w.val = win1_4.index t (4 : Fin 5) * 156 + 1 * w.val; omega
  have h1 : ((cfg1.win 2).blk t).view.emb (ix4 0 k h w)
      = ix4 (((cfg1.win 4).blk t).view.emb (ix5 0 b k h w) 0) (((cfg1.win 4).blk t).view.emb (ix5 0 b k h w) 2)
          (((cfg1.win 4).blk t).view.emb (ix5 0 b k h w) 3) (((cfg1.win 4).blk t).view.emb (ix5 0 b k h w) 4) := by
    funext a; apply Fin.ext
    match a with
    | ⟨0, _⟩ => show win1_2.index t (0 : Fin 4) * 1 + 1 * 0 = win1_4.index t (0 : Fin 5) * 1 + 1 * 0; omega
    | ⟨1, _⟩ => show win1_2.index t (1 : Fin 4) * 8 + 1 * k.val = win1_4.index t (2 : Fin 5) * 8 + 1 * k.val; omega
    | ⟨2, _⟩ => show win1_2.index t (2 : Fin 4) * 47 + 1 * h.val = win1_4.index t (3 : Fin 5) * 47 + 1 * h.val; omega
    | ⟨3, _⟩ => show win1_2.index t (3 : Fin 4) * 156 + 1 * w.val = win1_4.index t (4 : Fin 5) * 156 + 1 * w.val; omega
  exact congrArg₂ (fun x y : EReal => x * y)
    (congrArg (V c main_arg0 : S2x32x47x156.Idx → EReal) h0)
    (congrArg (V c main_v13_1 : S2x120x47x156.Idx → EReal) h1)

/-- What a grid point writes back to window 4's array is its block of the outer product: the body stores the product
    of its two whole input blocks over its whole result block. -/
theorem flushed_fft_eq (c : Dev nD) (t : Fin cfg1.N) :
    (dat1 V c).flushed 4 t = ((cfg1.win 4).blk t).view.read (Elt Ideal) (frustum (V c main_arg0) (V c main_v13_1)) := by
  show (cfg1.win 4).cut (grid1.coords t) ((dat1 V c).after 4 t) = _
  rw [after1_4]
  unfold out1_4
  rw [View.canon_unit_zero hz5]
  simp only [View.ld_unit_zero (S := S1x32x47x156) hz4, View.ld_unit_zero (S := S1x8x47x156) hz4]
  funext j
  have key : ∀ y : S1x32x8x47x156.Idx, k1_pay3 (F := Ideal) (iblk1 V c 0 t) (iblk1 V c 2 t) y
      = frustum (V c main_arg0) (V c main_v13_1) (((cfg1.win 4).blk t).view.emb y) := by
    intro y
    obtain ⟨a, b, k, h, w, rfl⟩ : ∃ a b k h w, y = ix5 a b k h w := ⟨y 0, y 1, y 2, y 3, y 4, eq_ix5 y⟩
    obtain rfl : a = 0 := Subsingleton.elim _ _
    exact prod_at_point_fft V c t b k h w
  exact key j

/-- An index of the array lies in a grid point's block exactly when each coordinate lies in the block's range on its
    axis. -/
theorem mem_blk_fft (t : Fin cfg1.N) (i : S2x32x120x47x156.Idx) :
    i ∈ ((cfg1.win 4).blk t).view.set ↔ ∀ a : Fin 5, win1_4.index t a * S1x32x8x47x156.size a ≤ (i a).val
      ∧ (i a).val < win1_4.index t a * S1x32x8x47x156.size a + S1x32x8x47x156.size a := by
  show i ∈ ((View.whole main_v14_1).slice (win1_4.rect t)).set ↔ _
  rw [View.set_slice_whole, Rect.mem_set_unit]
  exact Iff.rfl

/-- The blocks tile the array: the index (b, c, k, h, w) lies in the block of the point with batch index b and
    bin-block index k / 8. -/
theorem cover_fft (i : S2x32x120x47x156.Idx) :
    ∃ t : Fin cfg1.N, (cfg1.win 4).flush t = true ∧ i ∈ ((cfg1.win 4).blk t).view.set := by
  have hi0 : (i 0).val < 2 := (i 0).isLt
  have hi1 : (i 1).val < 32 := (i 1).isLt
  have hi2 : (i 2).val < 120 := (i 2).isLt
  have hi3 : (i 3).val < 47 := (i 3).isLt
  have hi4 : (i 4).val < 156 := (i 4).isLt
  obtain ⟨t, q0, q2⟩ := idx_onto_fft ⟨(i 0).val, hi0⟩ ⟨(i 2).val / 8, by omega⟩
  have q0' : win1_4.index t (0 : Fin 5) = (i 0).val := q0
  have q2' : win1_4.index t (2 : Fin 5) = (i 2).val / 8 := q2
  obtain ⟨e0, e1, e2, e3, e4, e5, e6, e7, e8, e9, e10, e11, e12⟩ := idx_facts_fft t
  refine ⟨t, flush1_4 t, ?_⟩
  rw [mem_blk_fft]
  intro a
  match a with
  | ⟨0, _⟩ => show win1_4.index t (0 : Fin 5) * 1 ≤ (i 0).val ∧ (i 0).val < win1_4.index t (0 : Fin 5) * 1 + 1; omega
  | ⟨1, _⟩ => show win1_4.index t (1 : Fin 5) * 32 ≤ (i 1).val ∧ (i 1).val < win1_4.index t (1 : Fin 5) * 32 + 32; omega
  | ⟨2, _⟩ => show win1_4.index t (2 : Fin 5) * 8 ≤ (i 2).val ∧ (i 2).val < win1_4.index t (2 : Fin 5) * 8 + 8; omega
  | ⟨3, _⟩ => show win1_4.index t (3 : Fin 5) * 47 ≤ (i 3).val ∧ (i 3).val < win1_4.index t (3 : Fin 5) * 47 + 47; omega
  | ⟨4, _⟩ => show win1_4.index t (4 : Fin 5) * 156 ≤ (i 4).val ∧ (i 4).val < win1_4.index t (4 : Fin 5) * 156 + 156; omega

/-- Window 4's array after the region: the outer product of the image features and the second distribution, everywhere. -/
theorem final_fft (c : Dev nD) : (dat1 V c).arrAt 4 cfg1.N = frustum (V c main_arg0) (V c main_v13_1) :=
  (dat1 V c).arrAt_eq_of_cover 4 (frustum (V c main_arg0) (V c main_v13_1)) (fun t _ => flushed_fft_eq V c t) cover_fft

end Cert.KernelIdeal.Region1

end
-- ==== Proof.RefRead.lean ====
/-
  The reference program's two large results, read index by index as the specification's arrays.

  * The softmax branch: at (b, c, d, h, w) the result is (the softmax over the 121 bins of pixel (b, h, w), bin d) times
    img[b, c, h, w]. The row maximum is a fold of max from −∞ with one more max with −∞ in front, which changes nothing;
    the sum starts from the pattern of 0, which adds nothing; the product's factors commute.
  * The one-hot branch: at (b, c, d, h, w) the result is ((bin = d ? 1 : 0) · (bin = 120 ? 100000 : 1)) times img[b, c, h, w];
    for d below 120 the first factor is 0 unless bin = d, and then bin is not 120 and the second factor is 1.
-/
import proofs.«108458_j77403900609179_1_alg».proof.Proof.Gen.ReferenceIdeal.Read
import proofs.«108458_j77403900609179_1_alg».proof.Proof.Spec
import Idealize.ShloMosaic.Lib.ValueIdx
import Idealize.ShloMosaic.PureOps.Ideal.Laws

noncomputable section

namespace Cert.ReferenceIdeal.RefRead

open Cert.ReferenceIdeal Cert.Spec Idealize.ShloMosaic Idealize.ShloMosaic.ValueIdx

/-- The index a reduction over axis 1 inserts coordinate k into (b, h, w) at is (b, k, h, w). -/
theorem lift_ix (b : Fin 2) (h : Fin 47) (w : Fin 156) (k : Fin 121)
    (hr : S2x121x47x156.Reduces [1] S2x47x156) :
    hr.lift (ix3 b h w) k = ix4 b k h w :=
  funext fun a => Fin.ext (by match a with | ⟨0, _⟩ => rfl | ⟨1, _⟩ => rfl | ⟨2, _⟩ => rfl | ⟨3, _⟩ => rfl)

/-- The reference's row maximum at pixel (b, h, w): max(−∞, fold of max from −∞) is the fold itself, since −∞ is below it. -/
theorem ref_max (x1 : S2x121x47x156.Idx → EReal) (b : Fin 2) (h : Fin 47) (w : Fin 156) :
    Read.val_main_v24 (F := Ideal) x1 (ix3 b h w) = rowMax x1 b h w := by
  rw [Read.val_main_v24_apply, Read.val_main_v23_apply, Read.val_main_cst_8_apply]
  unfold Read.val_main_v22
  have key := Host.reduce_eq_fold_single (FloatOps.maximumf (F := Ideal) (φ := .f32)) x1 (Read.val_main_cst_7 (F := Ideal))
    Gen.reducesTo_S2x121x47x156_S2x47x156_d1 (by decide) Gen.h_S_ (ix3 b h w)
  refine (congrArg (FloatOps.maximumf (F := Ideal) (φ := .f32) _) key).trans ?_
  have hf : ∀ hr : S2x121x47x156.Reduces [1] S2x47x156, (x1 ∘ hr.lift (ix3 b h w)) = fun k => x1 (ix4 b k h w) :=
    fun hr => funext fun k => congrArg x1 (lift_ix b h w k hr)
  refine (congrArg (fun f => max negInf ((Finset.univ : Finset (Fin 121)).fold max negInf f)) (hf _)).trans ?_
  exact max_eq_right ((Finset.le_fold_max _).mpr (Or.inl le_rfl))

/-- The reference's exponential at (b, k, h, w): e^(logit − the pixel's row maximum). -/
theorem ref_exp (x1 : S2x121x47x156.Idx → EReal) (b : Fin 2) (k : Fin 121) (h : Fin 47) (w : Fin 156) :
    Read.val_main_v28 (F := Ideal) x1 (ix4 b k h w) = expo x1 b k h w := by
  rw [Read.val_main_v28_apply, Read.val_main_v27_apply, Read.val_main_v26_apply, Read.val_main_v25_apply]
  have e : Read.idx_main_v25 (Read.idx_main_v26 (ix4 b k h w)) = ix3 b h w :=
    funext fun a => Fin.ext (by match a with | ⟨0, _⟩ => rfl | ⟨1, _⟩ => rfl | ⟨2, _⟩ => rfl)
  rw [e, ref_max]
  rfl

/-- The reference's denominator at pixel (b, h, w): 0 plus the sum of the 121 exponentials. -/
theorem ref_sum (x1 : S2x121x47x156.Idx → EReal) (b : Fin 2) (h : Fin 47) (w : Fin 156) :
    Read.val_main_v29 (F := Ideal) x1 (ix3 b h w) = ∑ k : Fin 121, expo x1 b k h w := by
  rw [Read.val_main_v29_apply, Read.val_main_cst_9_apply]
  refine (congrArg (· + _) Ideal.ofBits_zero_f32).trans ?_
  rw [zero_add]
  refine Finset.sum_congr rfl fun k _ => ?_
  have e : Read.idx_main_v29 (ix3 b h w) k = ix4 b k h w :=
    funext fun a => Fin.ext (by match a with | ⟨0, _⟩ => rfl | ⟨1, _⟩ => rfl | ⟨2, _⟩ => rfl | ⟨3, _⟩ => rfl)
  rw [e]
  exact ref_exp x1 b k h w

/-- The reference's softmax, sliced to the first 120 bins, at (b, d, h, w). -/
theorem ref_probs (x1 : S2x121x47x156.Idx → EReal) (b : Fin 2) (d : Fin 120) (h : Fin 47) (w : Fin 156) :
    Read.val_main_v33 (F := Ideal) x1 (ix4 b d h w) = probsAt x1 b d h w := by
  rw [Read.val_main_v33_apply, Read.val_main_v32_apply, Read.val_main_v31_apply, Read.val_main_v30_apply]
  have e2 : Read.idx_main_v30 (Read.idx_main_v31 (Read.idx_main_v33 (ix4 b d h w))) = ix3 b h w :=
    funext fun a => Fin.ext (by match a with | ⟨0, _⟩ => rfl | ⟨1, _⟩ => rfl | ⟨2, _⟩ => rfl)
  have e1 : Read.idx_main_v33 (ix4 b d h w) = ix4 b (Fin.castLE (by decide) d) h w :=
    funext fun a => Fin.ext (by match a with | ⟨0, _⟩ => rfl | ⟨1, _⟩ => rfl | ⟨2, _⟩ => rfl | ⟨3, _⟩ => rfl)
  rw [e2, e1, ref_exp, ref_sum]
  rfl

/-- The softmax branch of the reference is the outer product of the image features and the softmax. -/
theorem v38_eq (x0 : Cert.KernelIdeal.S2x32x47x156.Idx → EReal) (x1 : Cert.KernelIdeal.S2x121x47x156.Idx → EReal) :
    Read.val_main_v38 (F := Ideal) x0 x1 = frustum x0 (probs x1) := by
  funext i
  obtain ⟨b, c, d, h, w, rfl⟩ : ∃ (b : Fin 2) (c : Fin 32) (d : Fin 120) (h : Fin 47) (w : Fin 156), i = ix5 b c d h w :=
    ⟨i 0, i 1, i 2, i 3, i 4, eq_ix5 i⟩
  rw [Read.val_main_v38_apply, Read.val_main_v36_apply, Read.val_main_v34_apply, Read.val_main_v37_apply,
    Read.val_main_v35_apply]
  have e1 : Read.idx_main_v34 (Read.idx_main_v36 (ix5 b c d h w)) = ix4 b d h w :=
    funext fun a => Fin.ext (by match a with | ⟨0, _⟩ => rfl | ⟨1, _⟩ => rfl | ⟨2, _⟩ => rfl | ⟨3, _⟩ => rfl)
  have e2 : Read.idx_main_v35 (Read.idx_main_v37 (ix5 b c d h w)) = ix4 b c h w :=
    funext fun a => Fin.ext (by match a with | ⟨0, _⟩ => rfl | ⟨1, _⟩ => rfl | ⟨2, _⟩ => rfl | ⟨3, _⟩ => rfl)
  rw [e1, e2, ref_probs, frustum_apply, probs_apply]
  exact mul_comm _ _

/-- The pattern of 1.0 denotes the extended real 1. -/
theorem ofBits_one : Ideal.ofBits .f32 0x3F800000#32 = 1 :=
  IdealRules.sign_bit.ideal_onePat .f32

/-- The word compare for equality gives the bit 1 exactly on equal words. -/
theorem cmpi_eq_one_iff (a b : BitVec 32) : IntOp.cmpi .eq a b = 1#1 ↔ a = b := by
  show BitVec.ofBool (a == b) = 1#1 ↔ a = b
  by_cases hab : a = b
  · simp [hab]
  · have hf : (a == b) = false := beq_eq_false_iff_ne.mpr hab
    rw [hf]
    exact ⟨fun h => absurd h (by decide), fun h => absurd h hab⟩

/-- One element of the one-hot factor: the compare of the pixel's bin with the iota word of the bin axis. -/
theorem ref_hit (x3 : S2x47x156.Idx → BitVec 32) (b : Fin 2) (h : Fin 47) (w : Fin 156) (d : Fin 121) :
    Read.val_main_v13 (F := Ideal) x3 (ix4 b h w d)
      = FloatOps.uitofp (F := Ideal) .f32 (IntOp.cmpi .eq (x3 (ix3 b h w)) (BitVec.ofNat 32 d.val)) := by
  rw [Read.val_main_v13_apply, Read.val_main_call0_v4_apply, Read.val_main_call0_v2_apply, Read.val_main_call0_v0_apply,
    Read.val_main_call0_v3_apply, Read.val_main_call0_v1_apply]
  have e : Read.idx_main_call0_v0 (Read.idx_main_call0_v2 (ix4 b h w d)) = ix3 b h w :=
    funext fun a => Fin.ext (by match a with | ⟨0, _⟩ => rfl | ⟨1, _⟩ => rfl | ⟨2, _⟩ => rfl)
  rw [e]

/-- One element of the weight factor: 100000 where the pixel's bin is 120, else 1. -/
theorem ref_scale (x3 : S2x47x156.Idx → BitVec 32) (b : Fin 2) (h : Fin 47) (w : Fin 156) (d : Fin 121) :
    Read.val_main_v19 (F := Ideal) x3 (ix4 b h w d)
      = Scalar.select (IntOp.cmpi .eq (x3 (ix3 b h w)) 120#32) (Ideal.ofBits .f32 0x47C35000#32)
          (Ideal.ofBits .f32 0x3F800000#32) := by
  rw [Read.val_main_v19_apply, Read.val_main_v18_apply, Read.val_main_v17_apply, Read.val_main_v16_apply,
    Read.val_main_v15_apply, Read.val_main_v14_apply, Read.val_main_c_apply, Read.val_main_call1_v0_apply,
    Read.val_main_cst_5_apply, Read.val_main_call1_v1_apply, Read.val_main_cst_6_apply]
  have e : Read.idx_main_v18 (Read.idx_main_v19 (ix4 b h w d)) = ix3 b h w :=
    funext fun a => Fin.ext (by match a with | ⟨0, _⟩ => rfl | ⟨1, _⟩ => rfl | ⟨2, _⟩ => rfl)
  rw [e]
  rfl

/-- On words: (v = d ? 1 : 0) · (v = 120 ? 100000 : 1) is the indicator of v = d for d below 120. -/
theorem onehot_word (v : BitVec 32) (d : Fin 120) :
    (FloatOps.uitofp (F := Ideal) .f32 (IntOp.cmpi .eq v (BitVec.ofNat 32 d.val)) : EReal)
        * Scalar.select (IntOp.cmpi .eq v 120#32) (Ideal.ofBits .f32 0x47C35000#32) (Ideal.ofBits .f32 0x3F800000#32)
      = if v = BitVec.ofNat 32 d.val then 1 else 0 := by
  by_cases hv : v = BitVec.ofNat 32 d.val
  · have h1 : IntOp.cmpi .eq v (BitVec.ofNat 32 d.val) = 1#1 := (cmpi_eq_one_iff _ _).mpr hv
    have h2 : IntOp.cmpi .eq v 120#32 = 0#1 := by
      refine eq_zero_of_ne_one fun hc => ?_
      have h120 : v = 120#32 := (cmpi_eq_one_iff _ _).mp hc
      have hd : d.val < 120 := d.isLt
      have : (BitVec.ofNat 32 d.val).toNat = (120#32 : BitVec 32).toNat := congrArg BitVec.toNat (hv.symm.trans h120)
      rw [BitVec.toNat_ofNat, BitVec.toNat_ofNat] at this
      omega
    rw [h1, h2, select_zero, ofBits_one, if_pos hv, mul_one]
    show (((1 : ℕ) : ℝ) : EReal) = 1
    simp
  · have h1 : IntOp.cmpi .eq v (BitVec.ofNat 32 d.val) = 0#1 :=
      eq_zero_of_ne_one fun hc => hv ((cmpi_eq_one_iff _ _).mp hc)
    rw [h1, if_neg hv]
    show (((0 : ℕ) : ℝ) : EReal) * _ = 0
    simp

/-- The reference's weighted one-hot, transposed and sliced to the first 120 bins, at (b, d, h, w): the indicator of bin = d. -/
theorem ref_onehot (x3 : S2x47x156.Idx → BitVec 32) (b : Fin 2) (d : Fin 120) (h : Fin 47) (w : Fin 156) :
    Read.val_main_v39 (F := Ideal) x3 (ix4 b d h w) = onehotAt x3 b d h w := by
  rw [Read.val_main_v39_apply, Read.val_main_v21_apply, Read.val_main_v20_apply]
  have e : Read.idx_main_v21 (Read.idx_main_v39 (ix4 b d h w)) = ix4 b h w (Fin.castLE (by decide) d) :=
    funext fun a => Fin.ext (by match a with | ⟨0, _⟩ => rfl | ⟨1, _⟩ => rfl | ⟨2, _⟩ => rfl | ⟨3, _⟩ => rfl)
  rw [e, ref_hit, ref_scale]
  exact onehot_word (x3 (ix3 b h w)) d

/-- The one-hot branch of the reference is the outer product of the image features and the one-hot target. -/
theorem v44_eq (x0 : Cert.KernelIdeal.S2x32x47x156.Idx → EReal) (x3 : Cert.KernelIdeal.S2x47x156.Idx → BitVec 32) :
    Read.val_main_v44 (F := Ideal) x0 x3 = frustum x0 (onehot x3) := by
  funext i
  obtain ⟨b, c, d, h, w, rfl⟩ : ∃ (b : Fin 2) (c : Fin 32) (d : Fin 120) (h : Fin 47) (w : Fin 156), i = ix5 b c d h w :=
    ⟨i 0, i 1, i 2, i 3, i 4, eq_ix5 i⟩
  rw [Read.val_main_v44_apply, Read.val_main_v42_apply, Read.val_main_v40_apply, Read.val_main_v43_apply,
    Read.val_main_v41_apply]
  have e1 : Read.idx_main_v40 (Read.idx_main_v42 (ix5 b c d h w)) = ix4 b d h w :=
    funext fun a => Fin.ext (by match a with | ⟨0, _⟩ => rfl | ⟨1, _⟩ => rfl | ⟨2, _⟩ => rfl | ⟨3, _⟩ => rfl)
  have e2 : Read.idx_main_v41 (Read.idx_main_v43 (ix5 b c d h w)) = ix4 b c h w :=
    funext fun a => Fin.ext (by match a with | ⟨0, _⟩ => rfl | ⟨1, _⟩ => rfl | ⟨2, _⟩ => rfl | ⟨3, _⟩ => rfl)
  rw [e1, e2, ref_onehot, frustum_apply, onehot_apply]
  exact mul_comm _ _

end Cert.ReferenceIdeal.RefRead

end
-- ==== Proof.Claims.lean ====
/-
  The certificate's claims. The idealized kernel's three results are read off its run as functions of the arguments:
  its second region multiplies, pixel by pixel, the image features with the two arrays its first region left — the
  softmax of the depth logits over the 121 bins (its first 120 bins kept) and the one-hot of the target bins —, and the
  pooled depth map is a chain of host operations. The reference's results are the same three functions: its softmax
  takes one more maximum with −∞, which changes nothing; its one-hot is scaled by 1 wherever the kept bins are hit
  (100000 only at the dropped bin 120) and by anything where the one-hot is 0; its products have their factors in
  the other order; and its pooled depth map is the kernel's own chain of host operations.
-/
import proofs.«108458_j77403900609179_1_alg».proof.Defs
import proofs.«108458_j77403900609179_1_alg».proof.Proof.Gen.Kernel.Frame
import proofs.«108458_j77403900609179_1_alg».proof.Proof.Gen.KernelIdeal.Frame
import proofs.«108458_j77403900609179_1_alg».proof.Proof.Gen.ReferenceIdeal.Read
import proofs.«108458_j77403900609179_1_alg».proof.Proof.Gen.Pre_finite_inputs
import proofs.«108458_j77403900609179_1_alg».proof.Proof.Spec
import proofs.«108458_j77403900609179_1_alg».proof.Proof.KernelRun
import proofs.«108458_j77403900609179_1_alg».proof.Proof.Region0
import proofs.«108458_j77403900609179_1_alg».proof.Proof.Region1
import proofs.«108458_j77403900609179_1_alg».proof.Proof.RefRead
import Idealize.ShloMosaic.Lib.StableHlo.Run

set_option maxRecDepth 16384

noncomputable section

/-! ## The idealized kernel's three result arrays as functions of its arguments -/

namespace Cert.KernelIdeal.Values

open Cert.KernelIdeal Cert.KernelIdeal.Gen Cert.Spec
open Idealize.ShloMosaic Idealize.ShloMosaic.TcCoe Idealize.SL.Sem

/-- The pooled depth map: over each 8 × 8 patch of the depth map, the mean of the values divided by
    (the mean of the indicator "the value is not 0", plus 1e-10) — the host operations both programs share, as one
    function of the depth map. -/
def pooled {F : FTy → Type} [FloatOps F] (x2 : (⟨S2x376x1248, .f32⟩ : BufTy).Contents (Elt F)) : (⟨S2x47x156, .f32⟩ : BufTy).Contents (Elt F) :=
  Host.divf (Host.divf (Host.reduceAdd (shapeCast _ x2 shapeCasts_S2x376x1248_S2x47x8x156x8) (constant S_ .f32 0x00000000#32) reducesTo_S2x47x8x156x8_S2x47x156_d2_4 h_S_) (broadcastInDim S2x47x156 ![] bcast_S_S2x47x156 (constant S_ .f32 0x42800000#32))) (addf (Host.divf (Host.reduceAdd (uitofp .f32 (cmpf .une (shapeCast _ x2 shapeCasts_S2x376x1248_S2x47x8x156x8) (broadcastInDim S2x47x8x156x8 ![] bcast_S_S2x47x8x156x8 (constant S_ .f32 0x00000000#32)))) (constant S_ .f32 0x00000000#32) reducesTo_S2x47x8x156x8_S2x47x156_d2_4 h_S_) (broadcastInDim S2x47x156 ![] bcast_S_S2x47x156 (constant S_ .f32 0x42800000#32))) (broadcastInDim S2x47x156 ![] bcast_S_S2x47x156 (constant S_ .f32 0x2EDBE6FF#32)))

variable (m : (ℓ : Loc nD τ sig) → Buf (Elt Ideal) ℓ) (ρ : Dev nD → PrngReg)

/-- The predicted frustum: the second region multiplies the image features, untouched since launch, with what the
    first region left in its first output — the softmax of the logits, untouched since launch. -/
theorem frustum_pred (c : Dev nD) :
    W3 m ρ c (Proc.devRef .tc main_v14_0)
      = frustum (m ((c.tc : Thread nD τ).loc main_arg0)) (probs (m ((c.tc : Thread nD τ).loc main_arg1))) := by
  have e0 : V2 m ρ c main_arg0 = m ((c.tc : Thread nD τ).loc main_arg0) := Results.V2_main_arg0 m ρ c
  have e1 : V2 m ρ c main_v13_0 = probs (m ((c.tc : Thread nD τ).loc main_arg1)) :=
    (Results.V2_main_v13_0 m ρ c).trans ((Region0.final_probs (V1 m ρ) c).trans (congrArg probs (Results.V1_main_arg1 m ρ c)))
  rw [Results.W3_main_v14_0, Region1.final_ff (V2 m ρ) c, e0, e1]

/-- The target frustum: the same product with the first region's second output, the one-hot of the target bins. -/
theorem frustum_target (c : Dev nD) :
    W3 m ρ c (Proc.devRef .tc main_v14_1)
      = frustum (m ((c.tc : Thread nD τ).loc main_arg0)) (onehot (m ((c.tc : Thread nD τ).loc main_arg3))) := by
  have e0 : V2 m ρ c main_arg0 = m ((c.tc : Thread nD τ).loc main_arg0) := Results.V2_main_arg0 m ρ c
  have e1 : V2 m ρ c main_v13_1 = onehot (m ((c.tc : Thread nD τ).loc main_arg3)) :=
    (Results.V2_main_v13_1 m ρ c).trans ((Region0.final_target (V1 m ρ) c).trans (congrArg onehot (Results.V1_main_arg3 m ρ c)))
  rw [Results.W3_main_v14_1, Region1.final_fft (V2 m ρ) c, e0, e1]

/-- The pooled depth map is the host operations' term of the depth map as launched. -/
theorem pooled_depth (c : Dev nD) :
    W3 m ρ c (Proc.devRef .tc main_v12) = pooled (m ((c.tc : Thread nD τ).loc main_arg2)) := by
  refine (Results.W3_main_v12 m ρ c).trans ?_
  show StableHlo.after hostOps0 (W0 m ρ c) (Proc.devRef .tc main_v12) = _
  after_results
  rfl

/-- The idealized kernel's run with every result named as a function of the arguments. -/
theorem run : θ_run defs (onTc (τ := τ) (main (F := Ideal))) ⟨m, fun _ => 0, ρ⟩ (fun r => ∀ c : Dev nD,
      r.2.mem ((c.tc : Thread nD τ).loc main_v14_0) = frustum (m ((c.tc : Thread nD τ).loc main_arg0)) (probs (m ((c.tc : Thread nD τ).loc main_arg1)))
      ∧ r.2.mem ((c.tc : Thread nD τ).loc main_v14_1) = frustum (m ((c.tc : Thread nD τ).loc main_arg0)) (onehot (m ((c.tc : Thread nD τ).loc main_arg3)))
      ∧ r.2.mem ((c.tc : Thread nD τ).loc main_v12) = pooled (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (frustum_pred m ρ c), (h c).2.1.trans (frustum_target m ρ c),
      (h c).2.2.1.trans (pooled_depth m ρ c), (h c).2.2.2⟩)
    (Results.run m ρ)

end Cert.KernelIdeal.Values

/-! ## The claims -/

namespace Cert.Proof.Claims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Over the extended reals both programs end with the same three arrays of arguments that agree: the softmax frustum
    and the one-hot frustum (the reference's stages read as the same functions, its factors in the other order), and
    the pooled depth map, which both compute with the same host operations. -/
theorem algebraic : Cert.algebraic_KernelIdeal_ReferenceIdeal := by
  intro m ρ m' ρ' _ hagree
  refine ⟨_, _, _, Cert.KernelIdeal.Values.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v38_eq, Cert.ReferenceIdeal.RefRead.v38_eq, (hagree c).1, (hagree c).2.1]
  · rw [Cert.ReferenceIdeal.Read.val_main_v44_eq, Cert.ReferenceIdeal.RefRead.v44_eq, (hagree c).1, (hagree c).2.2.2]
  · rw [(hagree c).2.2.1]
    rfl

end Cert.Proof.Claims

end
-- ==== Proof.lean ====
/-
  The proof of `Cert.Claim`: the three frames, the (empty) idealization ledger, and the equivalence of the idealized
  kernel and the idealized reference over the extended reals.

  The kernel computes, for a batch of 2 images of 47 × 156 pixels: the softmax over 121 depth bins of the depth logits,
  of which it keeps the first 120 bins; the one-hot of each pixel's target bin over those 120 bins; the two "frustum"
  arrays, image feature (32 channels) times each of the two (120 bins); and a pooled depth map by host operations.
  Its first region produces the softmax and the one-hot one image at a time, its second region the two products, eight
  bins at a time. The reference computes the same arrays with whole-array operations. Proof/Claims.lean joins the two.
-/
import proofs.«108458_j77403900609179_1_alg».proof.Defs
import proofs.«108458_j77403900609179_1_alg».proof.Proof.Gen.Kernel
import proofs.«108458_j77403900609179_1_alg».proof.Proof.Gen.Kernel.Skeleton
import proofs.«108458_j77403900609179_1_alg».proof.Proof.Gen.Kernel.Launch
import proofs.«108458_j77403900609179_1_alg».proof.Proof.Gen.Kernel.Points
import proofs.«108458_j77403900609179_1_alg».proof.Proof.Gen.Kernel.Frame
import proofs.«108458_j77403900609179_1_alg».proof.Proof.Gen.KernelIdeal
import proofs.«108458_j77403900609179_1_alg».proof.Proof.Gen.KernelIdeal.Skeleton
import proofs.«108458_j77403900609179_1_alg».proof.Proof.Gen.KernelIdeal.Launch
import proofs.«108458_j77403900609179_1_alg».proof.Proof.Gen.KernelIdeal.Points
import proofs.«108458_j77403900609179_1_alg».proof.Proof.Gen.KernelIdeal.Frame
import proofs.«108458_j77403900609179_1_alg».proof.Proof.Gen.ReferenceIdeal
import proofs.«108458_j77403900609179_1_alg».proof.Proof.Gen.Pre_finite_inputs
import proofs.«108458_j77403900609179_1_alg».proof.Proof.Gen.ReferenceIdeal.Run
import proofs.«108458_j77403900609179_1_alg».proof.Proof.Gen.ReferenceIdeal.Read
import proofs.«108458_j77403900609179_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
